-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8x2048x2048 .f32) (main_arg1 : FVec F S8x2048x2048 .f32) (main_arg2 : FVec F S8x2048x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S8x2048x2048 : Shape := ⟨3, ![8, 2048, 2048]⟩
abbrev S2048x2048 : Shape := ⟨2, ![2048, 2048]⟩
abbrev S2048 : Shape := ⟨1, ![2048]⟩
abbrev S16384x2048 : Shape := ⟨2, ![16384, 2048]⟩
abbrev S2048x1 : Shape := ⟨2, ![2048, 1]⟩
abbrev S1x2048 : Shape := ⟨2, ![1, 2048]⟩
abbrev S1x256x2048 : Shape := ⟨3, ![1, 256, 2048]⟩
abbrev S1x2048x256 : Shape := ⟨3, ![1, 2048, 256]⟩
abbrev S256x2048 : Shape := ⟨2, ![256, 2048]⟩
abbrev S2048x256 : Shape := ⟨2, ![2048, 256]⟩
abbrev S512x2048 : Shape := ⟨2, ![512, 2048]⟩
abbrev S1x128x2048 : Shape := ⟨3, ![1, 128, 2048]⟩
abbrev S1x2048x2048 : Shape := ⟨3, ![1, 2048, 2048]⟩
abbrev S1x2048x128 : Shape := ⟨3, ![1, 2048, 128]⟩
abbrev S128x2048 : Shape := ⟨2, ![128, 2048]⟩
abbrev S128 : Shape := ⟨1, ![128]⟩
abbrev S128x1 : Shape := ⟨2, ![128, 1]⟩
abbrev S2048x128 : Shape := ⟨2, ![2048, 128]⟩

abbrev nBuf : Space → Nat
  | .hbm => 21
  | .vmem => 24
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S16384x2048, .f32⟩
  | .hbm, ⟨10, _⟩ => ⟨S16384x2048, .f32⟩
  | .hbm, ⟨11, _⟩ => ⟨S2048x2048, .bf16⟩
  | .hbm, ⟨12, _⟩ => ⟨S2048x1, .f32⟩
  | .hbm, ⟨13, _⟩ => ⟨S1x2048, .f32⟩
  | .hbm, ⟨14, _⟩ => ⟨S1x2048, .f32⟩
  | .hbm, ⟨15, _⟩ => ⟨S8x2048x2048, .f32⟩
  | .hbm, ⟨16, _⟩ => ⟨S16384x2048, .f32⟩
  | .hbm, ⟨17, _⟩ => ⟨S8x2048x2048, .f32⟩
  | .hbm, ⟨18, _⟩ => ⟨S16384x2048, .bf16⟩
  | .hbm, ⟨19, _⟩ => ⟨S8x2048x2048, .bf16⟩
  | .hbm, ⟨20, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S2048x2048, .f32⟩
  | .local _ .vmem, ⟨3, _⟩ => ⟨S2048x1, .f32⟩
  | .local _ .vmem, ⟨4, _⟩ => ⟨S1x2048x256, .f32⟩
  | .local _ .vmem, ⟨5, _⟩ => ⟨S1x2048x256, .f32⟩
  | .local _ .vmem, ⟨6, _⟩ => ⟨S256x2048, .f32⟩
  | .local _ .vmem, ⟨7, _⟩ => ⟨S256x2048, .f32⟩
  | .local _ .vmem, ⟨8, _⟩ => ⟨S2048x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S512x2048, .f32⟩
  | .local _ .vmem, ⟨13, _⟩ => ⟨S512x2048, .f32⟩
  | .local _ .vmem, ⟨14, _⟩ => ⟨S2048x2048, .bf16⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x2048x2048, .f32⟩
  | .local _ .vmem, ⟨21, _⟩ => ⟨S1x2048x2048, .bf16⟩
  | .local _ .vmem, ⟨22, _⟩ => ⟨S1x2048x128, .f32⟩
  | .local _ .vmem, ⟨23, _⟩ => ⟨S1x2048x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x128x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  shapeCasts_S8x2048x2048_S16384x2048 : S8x2048x2048.ShapeCasts S16384x2048
  bitsLt_bf16_f32 : FTy.bits .bf16 < FTy.bits .f32
  shapeCasts_S2048_S2048x1 : S2048.ShapeCasts S2048x1
  shapeCasts_S2048_S1x2048 : S2048.ShapeCasts S1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x2048_S2048x2048_0_0 : ∀ a, (![0, 0] : Fin 2 → Nat) a + S2048x2048.size a ≤ S2048x2048.size a
  h_S2048x2048 : 0 < S2048x2048.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S16384x2048_S8x2048x2048 : S16384x2048.ShapeCasts S8x2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S2048x2048_S2048x2048 : S2048x2048.ShapeCasts S2048x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  reduces_S128x2048_S128 : S128x2048.Reduces [1] S128
  shapeCasts_S128_S128x1 : S128.ShapeCasts S128x1
  broadcasts_S128x1_S128x2048 : S128x1.Broadcasts S128x2048
  transposes_S128x2048_p1_0_S2048x128 : S128x2048.Transposes [1, 0] S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x2048_S256x2048_S2048x256_1_1_0_0_n_n_wf : DotDims.WF S2048x2048 S256x2048 S2048x256 [1] [1] [0] [0] [] []
  dot_S256x2048_S2048x2048_S256x2048_1_1_0_0_n_n_wf : DotDims.WF S256x2048 S2048x2048 S256x2048 [1] [1] [0] [0] [] []
  dot_S512x2048_S2048x2048_S512x2048_1_1_0_0_n_n_wf : DotDims.WF S512x2048 S2048x2048 S512x2048 [1] [1] [0] [0] [] []
  dot_S128x2048_S2048x2048_S128x2048_1_1_0_0_n_n_wf : DotDims.WF S128x2048 S2048x2048 S128x2048 [1] [1] [0] [0] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .f32 = 32 ∨ (Rect.block (s := S2048x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x2048.size a
  hwx0_3 : ∀ i : grid0.Coords, EltTy.bits .f32 = 32 ∨ (Rect.block (s := S8x2048x2048) S1x2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S16384x2048.size a
  hwx1_3 : ∀ i : grid1.Coords, EltTy.bits .f32 = 32 ∨ (Rect.block (s := S16384x2048) S256x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S16384x2048.size a
  hwx2_0 : ∀ i : grid2.Coords, EltTy.bits .f32 = 32 ∨ (Rect.block (s := S16384x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S16384x2048.size a
  hwx2_3 : ∀ i : grid2.Coords, EltTy.bits .bf16 = 32 ∨ (Rect.block (s := S16384x2048) S512x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x2048.size a ≤ S8x2048x2048.size a
  hwx3_0 : ∀ i : grid3.Coords, EltTy.bits .f32 = 32 ∨ (Rect.block (s := S8x2048x2048) S1x128x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x2048.size a ≤ S8x2048x2048.size a
  hwx3_1 : ∀ i : grid3.Coords, EltTy.bits .f32 = 32 ∨ (Rect.block (s := S8x2048x2048) S1x2048x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x2048.size a ≤ S8x2048x2048.size a
  hwx3_2 : ∀ i : grid3.Coords, EltTy.bits .bf16 = 32 ∨ (Rect.block (s := S8x2048x2048) S1x2048x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x128.size a ≤ S8x2048x2048.size a
  hwx3_3 : ∀ i : grid3.Coords, EltTy.bits .f32 = 32 ∨ (Rect.block (s := S8x2048x2048) S1x2048x128.size (cc3_transform_3 i) (hinb3_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v6) S1x128x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1x2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x2048x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S8x2048x2048, .f32⟩
  | .hbm, ⟨10, _⟩ => ⟨S1x1x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S1x1x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  transposes_S8x2048x2048_S8x2048x2048_0_2_1 : S8x2048x2048.Transposes [0, 2, 1] S8x2048x2048
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []
  dot_S8x2048x2048_S8x2048x2048_S8x2048x2048_2_1_1_2_0_0_wf : DotDims.WF S8x2048x2048 S8x2048x2048 S8x2048x2048 [2] [1] [1] [2] [0] [0]

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.Spec.lean ====
/-
  The mathematics of the two programs, written once over plain coordinates (batch, row, column), with
  extended-real entries and no array shape in sight.

  Three linear layers  y[b,s,e] = Σ_d x[b,s,d]·W[e,d] + bias[e]  give q, k and v.  The logits contract the
  SEQUENCE axis of q against the FEATURE axis of k:  z[b,i,j] = Σ_t q[b,t,i]·k[b,j,t].  Each row of z is
  normalised by a softmax over j, and the result is  out[b,e,i] = Σ_j a[b,i,j]·v[b,j,e].

  The two programs differ only in how the softmax divides.  One multiplies each exponential by the reciprocal
  of the row sum, p·(1/l); the other divides, p/l, after multiplying the logits by the constant one, taking the
  row maximum once more against minus infinity, and starting the row sum from zero.  `Law.lean` proves the two
  readings equal wherever the logits are real numbers.
-/
import Idealize.ShloMosaic.PureOps.Ideal
import Idealize.ShloMosaic.Lib.ValueIdx

noncomputable section

namespace Cert.Spec

open Idealize.ShloMosaic Idealize.ShloMosaic.ValueIdx

/-- A stack of eight 2048 × 2048 matrices, a matrix, a vector: entries are extended reals. -/
abbrev T3 : Type := Fin 8 → Fin 2048 → Fin 2048 → EReal
abbrev T2 : Type := Fin 2048 → Fin 2048 → EReal
abbrev T1 : Type := Fin 2048 → EReal

/-- An array of shape [8, 2048, 2048], [2048, 2048] or [2048] read by its coordinates. -/
def cur3 (x : (⟨3, ![8, 2048, 2048]⟩ : Shape).Idx → EReal) : T3 := fun b s d => x (ix3 b s d)
def cur2 (x : (⟨2, ![2048, 2048]⟩ : Shape).Idx → EReal) : T2 := fun e d => x (ix2 e d)
def cur1 (x : (⟨1, ![2048]⟩ : Shape).Idx → EReal) : T1 := fun e => x (ix1 e)

/-- The patterns of minus infinity, zero and one, kept as patterns: both programs print the same words. -/
abbrev negInf : EReal := Ideal.ofBits .f32 0xFF800000#32
abbrev zeroW : EReal := Ideal.ofBits .f32 0x00000000#32
abbrev oneW : EReal := Ideal.ofBits .f32 0x3F800000#32

/-- A linear layer, the input as the left factor: y[b,s,e] = Σ_d x[b,s,d]·W[e,d] + bias[e]. -/
def lin (x : T3) (W : T2) (bias : T1) : T3 := fun b s e => (∑ d : Fin 2048, x b s d * W e d) + bias e

/-- The same layer with the weight as the left factor (the form that writes its result transposed). -/
def linL (x : T3) (W : T2) (bias : T1) : T3 := fun b s e => (∑ d : Fin 2048, W e d * x b s d) + bias e

/-- The logits: z[b,i,j] = Σ_t q[b,t,i]·k[b,j,t]. -/
def logit (q k : T3) : T3 := fun b i j => ∑ t : Fin 2048, q b t i * k b j t

/-- A row's maximum, folded from minus infinity. -/
def rowMax (z : T1) : EReal := (Finset.univ : Finset (Fin 2048)).fold max negInf z

/-- The softmax that multiplies by the reciprocal of the row sum: exp(z_j − max z) · (1 / Σ_j' exp(z_j' − max z)). -/
def softMul (z : T1) : T1 := fun j =>
  Ideal.exp (z j - rowMax z) * Ideal.div oneW (∑ j' : Fin 2048, Ideal.exp (z j' - rowMax z))

/-- The row maximum taken once more against minus infinity. -/
def rowMax' (z : T1) : EReal := max negInf (rowMax z)

/-- The softmax that divides by the row sum, the sum started from the zero word. -/
def softDiv (z : T1) : T1 := fun j =>
  Ideal.div (Ideal.exp (z j - rowMax' z)) (zeroW + ∑ j' : Fin 2048, Ideal.exp (z j' - rowMax' z))

/-- The logits multiplied by the constant one. -/
def logitOne (q k : T3) : T3 := fun b i j => logit q k b i j * oneW

/-- The first program's result: out[b,e,i] = Σ_j softMul(z[b,i,·])_j · v[b,j,e], q from the weight-left layer. -/
def resMul (xq xk xv : T3) (Wq Wk Wv : T2) (bq bk bv : T1) : T3 := fun b e i =>
  ∑ j : Fin 2048, softMul (logit (linL xq Wq bq) (lin xk Wk bk) b i) j * lin xv Wv bv b j e

/-- The second program's result: the same with the dividing softmax over the logits times one. -/
def resDiv (xq xk xv : T3) (Wq Wk Wv : T2) (bq bk bv : T1) : T3 := fun b e i =>
  ∑ j : Fin 2048, softDiv (logitOne (lin xq Wq bq) (lin xk Wk bk) b i) j * lin xv Wv bv b j e

end Cert.Spec

end
-- ==== Proof.Whole.lean ====
/-
  Each kernel region's output array as ONE function of the arrays the region reads, index by index, over the
  literal shapes; and the four composed, through the reshapes between them, into the program's result as a
  function of its nine arguments.

  Region 0 writes qT[b,e,s] = Σ_d Wq[e,d]·x[b,s,d] + bq[e]  (the weight is the left factor, the bias a column).
  Regions 1 and 2 write rows: y[r,e] = Σ_d x[r,d]·W[e,d] + bias[e], on the 16384 = 8·2048 flattened rows.
  Region 3 reads row i of qT[b] against all of k[b], takes the softmax that multiplies by the reciprocal of
  the row sum, contracts it with v[b], and writes the product transposed: out[b,e,i].
-/
import proofs.«420716_j39676907883957_3_alg».proof.KernelIdeal
import proofs.«420716_j39676907883957_3_alg».proof.Proof.Spec

noncomputable section

namespace Cert.KernelIdeal.Whole

open Cert.KernelIdeal Cert.Spec Idealize.ShloMosaic Idealize.ShloMosaic.ValueIdx

variable [Facts]
open Facts₀ Facts

/-- Region 0: the projection written transposed, qT[b,e,s]. -/
def projT (x : Vec Ideal S8x2048x2048 .f32) (W : Vec Ideal S2048x2048 .f32) (bcol : Vec Ideal S2048x1 .f32) :
    Vec Ideal S8x2048x2048 .f32 := fun i =>
  (∑ d : Fin 2048, W (ix2 (i 1) d) * x (ix3 (i 0) (i 2) d)) + bcol (ix2 (i 1) 0)

/-- Region 1: a projection row by row over the flattened rows. -/
def projRows (x : Vec Ideal S16384x2048 .f32) (W : Vec Ideal S2048x2048 .f32) (brow : Vec Ideal S1x2048 .f32) :
    Vec Ideal S16384x2048 .f32 := fun i =>
  (∑ d : Fin 2048, x (ix2 (i 0) d) * W (ix2 (i 1) d)) + brow (ix2 0 (i 1))

/-- Region 2: the same over a weight and a result of the narrower float format (the identity at exact values). -/
def projRowsB (x : Vec Ideal S16384x2048 .f32) (W : Vec Ideal S2048x2048 .bf16) (brow : Vec Ideal S1x2048 .f32) :
    Vec Ideal S16384x2048 .bf16 := fun i =>
  (∑ d : Fin 2048, x (ix2 (i 0) d) * W (ix2 (i 1) d)) + brow (ix2 0 (i 1))

/-- Region 3: out[b,e,i] = Σ_j softMul(z)_j · v[b,j,e] with z_j' = Σ_t qT[b,i,t]·k[b,j',t]. -/
def attend (qT k : Vec Ideal S8x2048x2048 .f32) (v : Vec Ideal S8x2048x2048 .bf16) :
    Vec Ideal S8x2048x2048 .f32 := fun i =>
  ∑ j : Fin 2048, softMul (fun j' => ∑ t : Fin 2048, qT (ix3 (i 0) (i 2) t) * k (ix3 (i 0) j' t)) j * v (ix3 (i 0) j (i 1))

/-- The program's result as a function of its nine arguments: the three projections, the second and third
    reshaped from flattened rows back to a stack, the third's weight narrowed first, fed to the attention. -/
def whole (x0 x1 x2 : Vec Ideal S8x2048x2048 .f32) (x3 : Vec Ideal S2048x2048 .f32) (x4 : Vec Ideal S2048 .f32)
    (x5 : Vec Ideal S2048x2048 .f32) (x6 : Vec Ideal S2048 .f32) (x7 : Vec Ideal S2048x2048 .f32) (x8 : Vec Ideal S2048 .f32) :
    Vec Ideal S8x2048x2048 .f32 :=
  attend (projT x0 x3 (shapeCast S2048x1 x4 shapeCasts_S2048_S2048x1))
    (shapeCast S8x2048x2048 (projRows (shapeCast S16384x2048 x1 shapeCasts_S8x2048x2048_S16384x2048) x5
      (shapeCast S1x2048 x6 shapeCasts_S2048_S1x2048)) shapeCasts_S16384x2048_S8x2048x2048)
    (shapeCast S8x2048x2048 (projRowsB (shapeCast S16384x2048 x2 shapeCasts_S8x2048x2048_S16384x2048)
      (truncf (F := Ideal) .bf16 (x7 : FVec Ideal S2048x2048 .f32) bitsLt_bf16_f32 : FVec Ideal S2048x2048 .bf16) (shapeCast S1x2048 x8 shapeCasts_S2048_S1x2048)) shapeCasts_S16384x2048_S8x2048x2048)

end Cert.KernelIdeal.Whole

end
-- ==== Proof.Region0.lean ====
import proofs.«420716_j39676907883957_3_alg».proof.Proof.Gen.KernelIdeal.Frame
import proofs.«420716_j39676907883957_3_alg».proof.Proof.Whole
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.KernelIdeal.Whole
open Idealize.ShloMosaic Idealize.ShloMosaic.TcCoe Idealize.ShloMosaic.ValueIdx Idealize.SL.Sem
open Idealize.ShloMosaic.Pipeline (Dat Cfg Window)

/-!
  Region 0 computes, for batch entry `b`, output row `e` and column `s`,
  `Σ_d W[e,d] · x[b,s,d] + bcol[e,0]`. It does so on an 8 × 8 grid: the point `(b, i)` reads rows
  `256·i … 256·i + 255` of `x[b]`, the whole weight and the whole bias column, and writes the `2048 × 256` block of
  columns `256·i … 256·i + 255` of the output's entry `b`. Below: the block product and the stored value read at an
  index; each input block read off its array; hence what a point writes back is its block of the projection; the
  blocks cover the output array; so the array ends as the projection.
-/

/-! ## The block product at an index -/

/-- The weight is the product's left factor: its row is the output's row, -/
theorem lhs_weight_0 (i : S2048x256.Idx) (q : dot_S2048x2048_S256x2048_S2048x256_1_1_0_0_n_n.contr.Idx) :
    (dot_S2048x2048_S256x2048_S2048x256_1_1_0_0_n_n.lhsIdx i q 0).val = (i 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl
/-- and its column is the summed index. -/
theorem lhs_weight_1 (i : S2048x256.Idx) (q : dot_S2048x2048_S256x2048_S2048x256_1_1_0_0_n_n.contr.Idx) :
    (dot_S2048x2048_S256x2048_S2048x256_1_1_0_0_n_n.lhsIdx i q 1).val = (q ⟨0, by decide⟩).val :=
  dot_S2048x2048_S256x2048_S2048x256_1_1_0_0_n_n.lhsIdx_val_of_single rfl i q
/-- The block of rows is the right factor: its row is the output's column, -/
theorem rhs_rows_0 (i : S2048x256.Idx) (q : dot_S2048x2048_S256x2048_S2048x256_1_1_0_0_n_n.contr.Idx) :
    (dot_S2048x2048_S256x2048_S2048x256_1_1_0_0_n_n.rhsIdx i q 0).val = (i 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl
/-- and its column is the summed index. -/
theorem rhs_rows_1 (i : S2048x256.Idx) (q : dot_S2048x2048_S256x2048_S2048x256_1_1_0_0_n_n.contr.Idx) :
    (dot_S2048x2048_S256x2048_S2048x256_1_1_0_0_n_n.rhsIdx i q 1).val = (q ⟨0, by decide⟩).val :=
  dot_S2048x2048_S256x2048_S2048x256_1_1_0_0_n_n.rhsIdx_val_of_single rfl i q

/-- The product of the weight with a block of rows, both contracted along their second axis, into a zero
    accumulator: at `(e, s)` it is `Σ_d W[e,d] · X[s,d]`. -/
theorem blockProduct_apply (W : FVec Ideal S2048x2048 .f32) (X : FVec Ideal S256x2048 .f32) (e : Fin 2048) (s : Fin 256) :
    matmul dot_S2048x2048_S256x2048_S2048x256_1_1_0_0_n_n (some .fp32) W X (constant (F := Ideal) S2048x256 .f32 0x00000000#32) (ix2 e s)
      = ∑ d : Fin 2048, W (ix2 e d) * X (ix2 s d) := by
  simp only [matmul]
  rw [Ideal.matmul_constant_zero_apply, ← Equiv.sum_comp (ValueIdx.contrEquiv1 dot_S2048x2048_S256x2048_S2048x256_1_1_0_0_n_n 2048 rfl rfl).symm]
  refine Finset.sum_congr rfl fun k _ => ?_
  have hk := ValueIdx.contrEquiv1_symm_val dot_S2048x2048_S256x2048_S2048x256_1_1_0_0_n_n 2048 rfl rfl k
  have el : dot_S2048x2048_S256x2048_S2048x256_1_1_0_0_n_n.lhsIdx (ix2 e s) ((ValueIdx.contrEquiv1 dot_S2048x2048_S256x2048_S2048x256_1_1_0_0_n_n 2048 rfl rfl).symm k) = ix2 e k := funext fun a => Fin.ext (by
    match a with
    | ⟨0, _⟩ => exact lhs_weight_0 _ _
    | ⟨1, _⟩ => exact (lhs_weight_1 _ _).trans hk)
  have er : dot_S2048x2048_S256x2048_S2048x256_1_1_0_0_n_n.rhsIdx (ix2 e s) ((ValueIdx.contrEquiv1 dot_S2048x2048_S256x2048_S2048x256_1_1_0_0_n_n 2048 rfl rfl).symm k) = ix2 s k := funext fun a => Fin.ext (by
    match a with
    | ⟨0, _⟩ => exact rhs_rows_0 _ _
    | ⟨1, _⟩ => exact (rhs_rows_1 _ _).trans hk)
  rw [el, er]

/-! ## What the body stores, at an index -/

/-- A column `[2048, 1]` spread over `[2048, 256]` reads, at `(e, s)`, the column's entry at row `e`. -/
theorem spreadColumn_apply (v : FVec Ideal S2048x1 .f32) (h : S2048x1.Broadcasts S2048x256) (e : Fin 2048) (s : Fin 256) :
    broadcastTo S2048x256 v h (ix2 e s) = v (ix2 e (0 : Fin 1)) := by
  refine broadcastTo_apply v h (ix2 e s) (ix2 e (0 : Fin 1)) fun ax => ?_
  match ax with
  | ⟨0, _⟩ =>
    show e.val = if (2048 : Nat) = 1 then 0 else e.val
    rw [if_neg (by decide)]
  | ⟨1, _⟩ =>
    show (0 : Nat) = if (1 : Nat) = 1 then 0 else s.val
    rw [if_pos rfl]

/-- The stored value at `(u, e, s)`: the leading unit axis of the rows is dropped, the weight is multiplied with them,
    the bias column is added along every column, and a leading unit axis is put back:
    `Σ_d x1[e,d] · x0[0,s,d] + x2[e,0]`. -/
theorem stored_apply (x0 : Vec Ideal S1x256x2048 .f32) (x1 : Vec Ideal S2048x2048 .f32) (x2 : Vec Ideal S2048x1 .f32)
    (u : Fin 1) (e : Fin 2048) (s : Fin 256) :
    k0_pay1 (F := Ideal) x0 x1 x2 (ix3 u e s)
      = (∑ d : Fin 2048, x1 (ix2 e d) * x0 (ix3 (0 : Fin 1) s d)) + x2 (ix2 e (0 : Fin 1)) := by
  unfold k0_pay1
  refine (shapeCast_ab_1ab_apply _ shapeCasts_S2048x256_S1x2048x256 u e s).trans ?_
  refine (addf_apply _ _ (ix2 e s)).trans ?_
  refine congrArg₂ (· + ·) ?_ ?_
  · refine (blockProduct_apply _ _ e s).trans ?_
    refine Finset.sum_congr rfl fun d _ => ?_
    exact congrArg (x1 (ix2 e d) * ·) (shapeCast_1ab_ab_apply x0 shapeCasts_S1x256x2048_S256x2048 s d)
  · refine (spreadColumn_apply _ broadcasts_S2048x1_S2048x256 e s).trans ?_
    rw [shapeCast_self]

/-! ## The windows' block indices over the grid -/

variable (V : (c : Dev nD) → (b : Ref sig .tc) → Buf (Elt Ideal) ((c : Thread nD τ).loc b))

theorem offsets3 : (![0, 0, 0] : Fin 3 → Nat) = fun _ => 0 := funext fun a => by fin_cases a <;> rfl
theorem offsets2 : (![0, 0] : Fin 2 → Nat) = fun _ => 0 := funext fun a => by fin_cases a <;> rfl

/-- The index maps, decided over the 64 points: the rows' block sits at the output block's batch entry, and its row
    block is the output's column block; the weight and the bias column have the one block `(0, 0)`; the output's block
    has row block 0, and its batch entry and column block are below 8. -/
theorem block_indices : ∀ t : Fin cfg0.N,
    win0_0.index t (0 : Fin 3) = win0_3.index t (0 : Fin 3)
    ∧ win0_0.index t (1 : Fin 3) = win0_3.index t (2 : Fin 3)
    ∧ win0_0.index t (2 : Fin 3) = 0
    ∧ win0_3.index t (1 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 7 ∧ win0_3.index t (2 : Fin 3) ≤ 7 :=
  (by decide +kernel : ∀ t : Fin grid0.N, _)

/-- Every pair (batch entry, column block) is some point's output block. -/
theorem block_indices_onto : ∀ (q0 : Fin 8) (q2 : Fin 8), ∃ t : Fin cfg0.N, win0_3.index t = ![q0.val, 0, q2.val] :=
  (by decide +kernel : ∀ (q0 : Fin 8) (q2 : Fin 8), ∃ t : Fin grid0.N, win0_3.index t = ![q0.val, 0, q2.val])

/-! ## The input blocks, read off their arrays -/

/-- The block of rows at point `t`: one batch entry, 256 consecutive rows, every column. -/
theorem rows_block_apply (c : Dev nD) (t : Fin cfg0.N) (u : Fin 1) (s : Fin 256) (d : Fin 2048) (b : Fin 8) (s' : Fin 2048)
    (hb : b.val = win0_0.index t (0 : Fin 3)) (hs : s'.val = win0_0.index t (1 : Fin 3) * 256 + s.val)
    (hd : win0_0.index t (2 : Fin 3) = 0) :
    (iblk0 V c 0 t : Vec Ideal S1x256x2048 .f32) (ix3 u s d) = (V c main_arg0 : Vec Ideal S8x2048x2048 .f32) (ix3 b s' d) := by
  unfold iblk0
  rw [View.read_apply]
  show V c main_arg0 _ = V c main_arg0 _
  congr 1
  funext a
  apply Fin.ext
  have hu : u.val < 1 := u.isLt
  match a with
  | ⟨0, _⟩ => show win0_0.index t (0 : Fin 3) * 1 + 1 * u.val = b.val; omega
  | ⟨1, _⟩ => show win0_0.index t (1 : Fin 3) * 256 + 1 * s.val = s'.val; omega
  | ⟨2, _⟩ => show win0_0.index t (2 : Fin 3) * 2048 + 1 * d.val = d.val; omega

/-- The weight's one block is the whole weight. -/
theorem weight_block_apply (c : Dev nD) (t : Fin cfg0.N) (e : Fin 2048) (d : Fin 2048)
    (h0 : win0_1.index t (0 : Fin 2) = 0) (h1 : win0_1.index t (1 : Fin 2) = 0) :
    (iblk0 V c 1 t : Vec Ideal S2048x2048 .f32) (ix2 e d) = (V c main_arg3 : Vec Ideal S2048x2048 .f32) (ix2 e d) := by
  unfold iblk0
  rw [View.read_apply]
  show V c main_arg3 _ = V c main_arg3 _
  congr 1
  funext a
  apply Fin.ext
  match a with
  | ⟨0, _⟩ => show win0_1.index t (0 : Fin 2) * 2048 + 1 * e.val = e.val; omega
  | ⟨1, _⟩ => show win0_1.index t (1 : Fin 2) * 2048 + 1 * d.val = d.val; omega

/-- The bias column's one block is the whole column. -/
theorem column_block_apply (c : Dev nD) (t : Fin cfg0.N) (e : Fin 2048) (z : Fin 1)
    (h0 : win0_2.index t (0 : Fin 2) = 0) (h1 : win0_2.index t (1 : Fin 2) = 0) :
    (iblk0 V c 2 t : Vec Ideal S2048x1 .f32) (ix2 e z) = (V c main_v3 : Vec Ideal S2048x1 .f32) (ix2 e z) := by
  unfold iblk0
  rw [View.read_apply]
  show V c main_v3 _ = V c main_v3 _
  congr 1
  funext a
  apply Fin.ext
  match a with
  | ⟨0, _⟩ => show win0_2.index t (0 : Fin 2) * 2048 + 1 * e.val = e.val; omega
  | ⟨1, _⟩ => show win0_2.index t (1 : Fin 2) * 1 + 1 * z.val = z.val; omega

/-! ## One point's store is its block of the projection -/

/-- Over blocks that are the arrays read where the output's rectangle says, the stored value at `(u, e, s)` is the
    projection at `(b, e', s')`. -/
theorem stored_eq_projT (X : Vec Ideal S8x2048x2048 .f32) (W : Vec Ideal S2048x2048 .f32) (bcol : Vec Ideal S2048x1 .f32)
    (x0 : Vec Ideal S1x256x2048 .f32) (x1 : Vec Ideal S2048x2048 .f32) (x2 : Vec Ideal S2048x1 .f32)
    (u : Fin 1) (e : Fin 2048) (s : Fin 256) (b : Fin 8) (e' : Fin 2048) (s' : Fin 2048)
    (h0 : ∀ d : Fin 2048, x0 (ix3 (0 : Fin 1) s d) = X (ix3 b s' d))
    (h1 : ∀ d : Fin 2048, x1 (ix2 e d) = W (ix2 e' d))
    (h2 : x2 (ix2 e (0 : Fin 1)) = bcol (ix2 e' (0 : Fin 1))) :
    k0_pay1 (F := Ideal) x0 x1 x2 (ix3 u e s) = projT X W bcol (ix3 b e' s') := by
  refine (stored_apply x0 x1 x2 u e s).trans ?_
  show _ = (∑ d : Fin 2048, W (ix2 e' d) * X (ix3 b s' d)) + bcol (ix2 e' (0 : Fin 1))
  rw [h2]
  refine congrArg (· + bcol (ix2 e' (0 : Fin 1))) (Finset.sum_congr rfl fun d _ => ?_)
  rw [h0 d, h1 d]

/-- What point `t` writes back is block `t` of the projection of the three arrays as the region finds them: the
    block's entry `(u, e, s)` sits in the array at (the block's batch entry, `e`, 256 × its column block + `s`), and the
    rows the body read are exactly rows 256 × that column block + `s` of that batch entry. -/
theorem flushed_eq (c : Dev nD) (t : Fin cfg0.N) :
    (dat0 (F := Ideal) V c).flushed 3 t = ((cfg0.win 3).blk t).view.read (Elt Ideal) (projT (V c main_arg0) (V c main_arg3) (V c main_v3)) := by
  show (cfg0.win 3).cut (grid0.coords t) ((dat0 V c).after 3 t) = _
  rw [after0_3]
  unfold out0_3
  rw [View.canon_unit_zero offsets3]
  simp only [View.ld_unit_zero (S := S1x256x2048) offsets3, View.ld_unit_zero (S := S2048x2048) offsets2, View.ld_unit_zero (S := S2048x1) offsets2]
  obtain ⟨e0, e1, e2, e3, e4, e5, e6, e7, e8, e9⟩ := block_indices t
  funext j
  rw [View.read_apply]
  have hj0 : (j 0).val < 1 := (j 0).isLt
  have hj1 : (j 1).val < 2048 := (j 1).isLt
  have hj2 : (j 2).val < 256 := (j 2).isLt
  have hy : (win0 3).xinj (grid0.coords t) j = ix3 (⟨(j 0).val, hj0⟩ : Fin 1) (⟨(j 1).val, hj1⟩ : Fin 2048) (⟨(j 2).val, hj2⟩ : Fin 256) :=
    funext fun a => match a with | ⟨0, _⟩ => rfl | ⟨1, _⟩ => rfl | ⟨2, _⟩ => rfl
  have hk : ((View.whole main_v6).slice ((win0 3).rect t)).emb j
      = ix3 (⟨win0_3.index t (0 : Fin 3), by omega⟩ : Fin 8) (⟨(j 1).val, hj1⟩ : Fin 2048) (⟨win0_3.index t (2 : Fin 3) * 256 + (j 2).val, by omega⟩ : Fin 2048) :=
    funext fun a => Fin.ext (by
      match a with
      | ⟨0, _⟩ => show win0_3.index t (0 : Fin 3) * 1 + 1 * (j 0).val = win0_3.index t (0 : Fin 3); omega
      | ⟨1, _⟩ => show win0_3.index t (1 : Fin 3) * 2048 + 1 * (j 1).val = (j 1).val; omega
      | ⟨2, _⟩ => show win0_3.index t (2 : Fin 3) * 256 + 1 * (j 2).val = win0_3.index t (2 : Fin 3) * 256 + (j 2).val; omega)
  show k0_pay1 (F := Ideal) (iblk0 V c 0 t) (iblk0 V c 1 t) (iblk0 V c 2 t) ((win0 3).xinj (grid0.coords t) j)
    = projT (V c main_arg0) (V c main_arg3) (V c main_v3) (((View.whole main_v6).slice ((win0 3).rect t)).emb j)
  rw [hy, hk]
  exact stored_eq_projT (V c main_arg0) (V c main_arg3) (V c main_v3) (iblk0 V c 0 t) (iblk0 V c 1 t) (iblk0 V c 2 t)
    ⟨(j 0).val, hj0⟩ ⟨(j 1).val, hj1⟩ ⟨(j 2).val, hj2⟩ ⟨win0_3.index t (0 : Fin 3), by omega⟩ ⟨(j 1).val, hj1⟩ ⟨win0_3.index t (2 : Fin 3) * 256 + (j 2).val, by omega⟩
    (fun d => rows_block_apply V c t (0 : Fin 1) ⟨(j 2).val, hj2⟩ d ⟨win0_3.index t (0 : Fin 3), by omega⟩ ⟨win0_3.index t (2 : Fin 3) * 256 + (j 2).val, by omega⟩
      e0.symm (by show win0_3.index t (2 : Fin 3) * 256 + (j 2).val = win0_0.index t (1 : Fin 3) * 256 + (j 2).val; rw [e1]) e2)
    (fun d => weight_block_apply V c t ⟨(j 1).val, hj1⟩ d e4 e5)
    (column_block_apply V c t ⟨(j 1).val, hj1⟩ (0 : Fin 1) e6 e7)

/-! ## Every index of the output lies in some point's block -/

/-- An index of the output array is in point `t`'s block iff each coordinate is in the block's range on its axis. -/
theorem mem_block (t : Fin cfg0.N) (i : S8x2048x2048.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v6).slice (win0_3.rect t)).set ↔ _
  rw [View.set_slice_whole, Rect.mem_set_unit]
  exact Iff.rfl

/-- The point whose block holds `(b, e, s)` is the one at batch entry `b` and column block `s / 256`. -/
theorem covered (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := block_indices_onto ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- After region 0 its output array is `projT` of the three arrays it reads, as the region finds them. -/
theorem final0 (c : Dev nD) :
    (dat0 (F := Ideal) V c).arrAt 3 cfg0.N = projT (V c main_arg0) (V c main_arg3) (V c main_v3) :=
  (dat0 (F := Ideal) V c).arrAt_eq_of_cover 3 (projT (V c main_arg0) (V c main_arg3) (V c main_v3))
    (fun t _ => flushed_eq V c t) covered

end Cert.KernelIdeal.Region0

end
-- ==== Proof.Region1.lean ====
import proofs.«420716_j39676907883957_3_alg».proof.Proof.Gen.KernelIdeal.Frame
import proofs.«420716_j39676907883957_3_alg».proof.Proof.Whole
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.KernelIdeal.Whole
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product read at an index

The body multiplies a block of 256 rows by the whole weight, contracting the second axis of each: entry (p, q) of
the product is the sum over d of row p of the block at d times row q of the weight at d. -/

/-- The left operand is read, on its row axis, at the output's row. -/
theorem lhs_row (i : S256x2048.Idx) (k : dot_S256x2048_S2048x2048_S256x2048_1_1_0_0_n_n.contr.Idx) :
    (dot_S256x2048_S2048x2048_S256x2048_1_1_0_0_n_n.lhsIdx i k 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
/-- The left operand is read, on its contracted axis, at the summation index. -/
theorem lhs_contr (i : S256x2048.Idx) (k : dot_S256x2048_S2048x2048_S256x2048_1_1_0_0_n_n.contr.Idx) :
    (dot_S256x2048_S2048x2048_S256x2048_1_1_0_0_n_n.lhsIdx i k 1).val = (k ⟨0, by decide⟩).val :=
  dot_S256x2048_S2048x2048_S256x2048_1_1_0_0_n_n.lhsIdx_val_of_single rfl i k
/-- The right operand is read, on its row axis, at the output's column. -/
theorem rhs_row (i : S256x2048.Idx) (k : dot_S256x2048_S2048x2048_S256x2048_1_1_0_0_n_n.contr.Idx) :
    (dot_S256x2048_S2048x2048_S256x2048_1_1_0_0_n_n.rhsIdx i k 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- The right operand is read, on its contracted axis, at the summation index. -/
theorem rhs_contr (i : S256x2048.Idx) (k : dot_S256x2048_S2048x2048_S256x2048_1_1_0_0_n_n.contr.Idx) :
    (dot_S256x2048_S2048x2048_S256x2048_1_1_0_0_n_n.rhsIdx i k 1).val = (k ⟨0, by decide⟩).val :=
  dot_S256x2048_S2048x2048_S256x2048_1_1_0_0_n_n.rhsIdx_val_of_single rfl i k

/-- The block product into the zero accumulator, at entry (p, q): the sum over the 2048 contracted positions. -/
theorem product_apply (x : FVec Ideal S256x2048 .f32) (W : FVec Ideal S2048x2048 .f32) (p : Fin 256) (q : Fin 2048) :
    matmul dot_S256x2048_S2048x2048_S256x2048_1_1_0_0_n_n (some .fp32) x W (constant (F := Ideal) S256x2048 .f32 0x00000000#32) (ix2 p q)
      = ∑ d : Fin 2048, x (ix2 p d) * W (ix2 q d) := by
  simp only [matmul]
  rw [Ideal.matmul_constant_zero_apply, ← Equiv.sum_comp (ValueIdx.contrEquiv1 dot_S256x2048_S2048x2048_S256x2048_1_1_0_0_n_n 2048 rfl rfl).symm]
  refine Finset.sum_congr rfl fun d _ => ?_
  have hd := ValueIdx.contrEquiv1_symm_val dot_S256x2048_S2048x2048_S256x2048_1_1_0_0_n_n 2048 rfl rfl d
  have el : dot_S256x2048_S2048x2048_S256x2048_1_1_0_0_n_n.lhsIdx (ix2 p q) ((ValueIdx.contrEquiv1 dot_S256x2048_S2048x2048_S256x2048_1_1_0_0_n_n 2048 rfl rfl).symm d) = ix2 p d := funext fun a => Fin.ext (by
    match a with
    | ⟨0, _⟩ => exact lhs_row _ _
    | ⟨1, _⟩ => exact (lhs_contr _ _).trans hd)
  have er : dot_S256x2048_S2048x2048_S256x2048_1_1_0_0_n_n.rhsIdx (ix2 p q) ((ValueIdx.contrEquiv1 dot_S256x2048_S2048x2048_S256x2048_1_1_0_0_n_n 2048 rfl rfl).symm d) = ix2 q d := funext fun a => Fin.ext (by
    match a with
    | ⟨0, _⟩ => exact rhs_row _ _
    | ⟨1, _⟩ => exact (rhs_contr _ _).trans hd)
  rw [el, er]

/-- What the body stores, at entry (p, q): the product's entry plus the bias row at q (the two shape casts are of a
    shape to itself; the bias row is repeated down the 256 rows). -/
theorem stored_apply (x0 : Vec Ideal S256x2048 .f32) (x1 : Vec Ideal S2048x2048 .f32) (x2 : Vec Ideal S1x2048 .f32)
    (p : Fin 256) (q : Fin 2048) :
    k1_pay1 (F := Ideal) x0 x1 x2 (ix2 p q) = (∑ d : Fin 2048, x0 (ix2 p d) * x1 (ix2 q d)) + x2 (ix2 (0 : Fin 1) q) := by
  unfold k1_pay1
  rw [addf_apply, shapeCast_self, shapeCast_self, product_apply, broadcastTo_1b_ab_apply]

/-! ## From the blocks to the array

Point t of the 64 reads rows 256·t … 256·t + 255 of the input, the whole weight and the whole bias row, and writes
back the same rows of the output. -/

/-- The zero offsets of a whole-buffer access, as a constant function. -/
theorem off_zero : (![0, 0] : Fin 2 → Nat) = fun _ => 0 :=
  funext fun a => by match a with | ⟨0, _⟩ => rfl | ⟨1, _⟩ => rfl

/-- The four index maps over the grid: the input's and the output's block row is the point's number, every other
    block coordinate is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The stored block against the whole-array function, entry by entry: if row y₀ of the input block is row i₀ of the
    input array, row y₁ of the weight block is row i₁ of the weight, and the bias block at y₁ is the bias at i₁, then
    the stored entry at y is the array function's entry at i. -/
theorem stored_eq_projRows (x0 : Vec Ideal S256x2048 .f32) (x1 : Vec Ideal S2048x2048 .f32) (x2 : Vec Ideal S1x2048 .f32)
    (X : Vec Ideal S16384x2048 .f32) (W : Vec Ideal S2048x2048 .f32) (b : Vec Ideal S1x2048 .f32)
    (y : S256x2048.Idx) (i : S16384x2048.Idx)
    (h0 : ∀ d : Fin 2048, x0 (ix2 (y 0) d) = X (ix2 (i 0) d))
    (h1 : ∀ d : Fin 2048, x1 (ix2 (y 1) d) = W (ix2 (i 1) d))
    (h2 : x2 (ix2 (0 : Fin 1) (y 1)) = b (ix2 (0 : Fin 1) (i 1))) :
    k1_pay1 (F := Ideal) x0 x1 x2 y = projRows X W b i := by
  refine (congrArg (k1_pay1 (F := Ideal) x0 x1 x2) (eq_ix2 y)).trans ((stored_apply x0 x1 x2 (y 0) (y 1)).trans ?_)
  show _ = (∑ d : Fin 2048, X (ix2 (i 0) d) * W (ix2 (i 1) d)) + b (ix2 0 (i 1))
  rw [h2]
  exact congrArg (· + b (ix2 0 (i 1))) (Finset.sum_congr rfl fun d _ => by rw [h0 d, h1 d])

/-- What point t writes back is block t of the whole-array function of the three arrays as the region finds them. -/
theorem flushed_eq (c : Dev nD) (t : Fin cfg1.N) :
    (dat1 (F := Ideal) V c).flushed 3 t
      = ((cfg1.win 3).blk t).view.read (Elt Ideal) (projRows (V c main_v0) (V c main_arg5) (V c main_v4)) := by
  show (cfg1.win 3).cut (grid1.coords t) ((dat1 V c).after 3 t) = _
  rw [after1_3]
  unfold out1_3
  rw [View.canon_unit_zero off_zero]
  simp only [View.ld_unit_zero (S := S256x2048) off_zero, View.ld_unit_zero (S := S2048x2048) off_zero, View.ld_unit_zero (S := S1x2048) off_zero]
  obtain ⟨e00, e01, e10, e11, e20, e21, e30, e31⟩ := index_facts t
  funext j
  refine stored_eq_projRows (iblk1 V c 0 t) (iblk1 V c 1 t) (iblk1 V c 2 t) (V c main_v0) (V c main_arg5) (V c main_v4)
    ((cfg1.win 3).xinj (grid1.coords t) j) (((cfg1.win 3).blk t).view.emb j) ?_ ?_ ?_
  · -- row (j 0) of the input block is row 256·t + (j 0) of the input array
    intro d
    show V c main_v0 (((cfg1.win 0).blk t).view.emb (ix2 ((cfg1.win 3).xinj (grid1.coords t) j 0) d)) = V c main_v0 (ix2 ((((cfg1.win 3).blk t).view.emb j) 0) d)
    refine congrArg (V c main_v0) (funext fun a => Fin.ext ?_)
    match a with
    | ⟨0, _⟩ => show win1_0.index t (0 : Fin 2) * 256 + 1 * (j 0).val = win1_3.index t (0 : Fin 2) * 256 + 1 * (j 0).val; omega
    | ⟨1, _⟩ => show win1_0.index t (1 : Fin 2) * 2048 + 1 * d.val = d.val; omega
  · -- the weight's one block is the weight
    intro d
    show V c main_arg5 (((cfg1.win 1).blk t).view.emb (ix2 ((cfg1.win 3).xinj (grid1.coords t) j 1) d)) = V c main_arg5 (ix2 ((((cfg1.win 3).blk t).view.emb j) 1) d)
    refine congrArg (V c main_arg5) (funext fun a => Fin.ext ?_)
    match a with
    | ⟨0, _⟩ => show win1_1.index t (0 : Fin 2) * 2048 + 1 * (j 1).val = win1_3.index t (1 : Fin 2) * 2048 + 1 * (j 1).val; omega
    | ⟨1, _⟩ => show win1_1.index t (1 : Fin 2) * 2048 + 1 * d.val = d.val; omega
  · -- the bias row's one block is the bias row
    show V c main_v4 (((cfg1.win 2).blk t).view.emb (ix2 (0 : Fin 1) ((cfg1.win 3).xinj (grid1.coords t) j 1))) = V c main_v4 (ix2 (0 : Fin 1) ((((cfg1.win 3).blk t).view.emb j) 1))
    refine congrArg (V c main_v4) (funext fun a => Fin.ext ?_)
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega

/-- An index of the output array is in point t's block iff, on each axis, its coordinate is in the block's range. -/
theorem mem_block (t : Fin cfg1.N) (i : S16384x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v7).slice (win1_3.rect t)).set ↔ _
  rw [View.set_slice_whole, Rect.mem_set_unit]
  exact Iff.rfl

/-- Every index of the output array is in some point's block: row r lies in the block of point r / 256. -/
theorem covered (i : S16384x2048.Idx) :
    ∃ t : Fin cfg1.N, (cfg1.win 3).flush t = true ∧ i ∈ ((cfg1.win 3).blk t).view.set := by
  have hN : cfg1.N = 64 := N_1
  have hi0 : (i 0).val < 16384 := (i 0).isLt
  have hi1 : (i 1).val < 2048 := (i 1).isLt
  have ht : (i 0).val / 256 < cfg1.N := by rw [hN]; omega
  obtain ⟨-, -, -, -, -, -, e30, e31⟩ := index_facts ⟨(i 0).val / 256, ht⟩
  have q0 : win1_3.index ⟨(i 0).val / 256, ht⟩ (0 : Fin 2) = (i 0).val / 256 := e30
  refine ⟨⟨(i 0).val / 256, ht⟩, flush1_3 _, ?_⟩
  rw [mem_block]
  intro a
  match a with
  | ⟨0, _⟩ => show win1_3.index ⟨(i 0).val / 256, ht⟩ (0 : Fin 2) * 256 ≤ (i 0).val ∧ (i 0).val < win1_3.index ⟨(i 0).val / 256, ht⟩ (0 : Fin 2) * 256 + 256; omega
  | ⟨1, _⟩ => show win1_3.index ⟨(i 0).val / 256, ht⟩ (1 : Fin 2) * 2048 ≤ (i 1).val ∧ (i 1).val < win1_3.index ⟨(i 0).val / 256, ht⟩ (1 : Fin 2) * 2048 + 2048; omega

/-- After region 1 its output array is `projRows` of the three arrays it reads, as the region finds them. -/
theorem final1 (c : Dev nD) :
    (dat1 (F := Ideal) V c).arrAt 3 cfg1.N = projRows (V c main_v0) (V c main_arg5) (V c main_v4) :=
  (dat1 (F := Ideal) V c).arrAt_eq_of_cover 3 (projRows (V c main_v0) (V c main_arg5) (V c main_v4))
    (fun t _ => flushed_eq V c t) covered

end Cert.KernelIdeal.Region1

end
-- ==== Proof.Region2.lean ====
import proofs.«420716_j39676907883957_3_alg».proof.Proof.Gen.KernelIdeal.Frame
import proofs.«420716_j39676907883957_3_alg».proof.Proof.Whole
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.KernelIdeal.Whole
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product read at an index

The body multiplies a block of 512 rows, narrowed to the weight's float format, by the whole weight, contracting the
second axis of each: entry (p, q) of the product is the sum over d of row p of the block at d times row q of the
weight at d. At exact values a change of float format is the identity. -/

/-- The left operand is read, on its row axis, at the output's row. -/
theorem lhs_row (i : S512x2048.Idx) (k : dot_S512x2048_S2048x2048_S512x2048_1_1_0_0_n_n.contr.Idx) :
    (dot_S512x2048_S2048x2048_S512x2048_1_1_0_0_n_n.lhsIdx i k 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- The left operand is read, on its contracted axis, at the summation index. -/
theorem lhs_contr (i : S512x2048.Idx) (k : dot_S512x2048_S2048x2048_S512x2048_1_1_0_0_n_n.contr.Idx) :
    (dot_S512x2048_S2048x2048_S512x2048_1_1_0_0_n_n.lhsIdx i k 1).val = (k ⟨0, by decide⟩).val :=
  dot_S512x2048_S2048x2048_S512x2048_1_1_0_0_n_n.lhsIdx_val_of_single rfl i k
/-- The right operand is read, on its row axis, at the output's column. -/
theorem rhs_row (i : S512x2048.Idx) (k : dot_S512x2048_S2048x2048_S512x2048_1_1_0_0_n_n.contr.Idx) :
    (dot_S512x2048_S2048x2048_S512x2048_1_1_0_0_n_n.rhsIdx i k 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- The right operand is read, on its contracted axis, at the summation index. -/
theorem rhs_contr (i : S512x2048.Idx) (k : dot_S512x2048_S2048x2048_S512x2048_1_1_0_0_n_n.contr.Idx) :
    (dot_S512x2048_S2048x2048_S512x2048_1_1_0_0_n_n.rhsIdx i k 1).val = (k ⟨0, by decide⟩).val :=
  dot_S512x2048_S2048x2048_S512x2048_1_1_0_0_n_n.rhsIdx_val_of_single rfl i k

/-- The block product into the zero accumulator, at entry (p, q): the sum over the 2048 contracted positions. -/
theorem product_apply (x : FVec Ideal S512x2048 .bf16) (W : FVec Ideal S2048x2048 .bf16) (p : Fin 512) (q : Fin 2048) :
    matmul dot_S512x2048_S2048x2048_S512x2048_1_1_0_0_n_n none x W (constant (F := Ideal) S512x2048 .f32 0x00000000#32) (ix2 p q)
      = ∑ d : Fin 2048, x (ix2 p d) * W (ix2 q d) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun d _ => ?_
  have hd := ValueIdx.contrEquiv1_symm_val dot_S512x2048_S2048x2048_S512x2048_1_1_0_0_n_n 2048 rfl rfl d
  have el : dot_S512x2048_S2048x2048_S512x2048_1_1_0_0_n_n.lhsIdx (ix2 p q) ((ValueIdx.contrEquiv1 dot_S512x2048_S2048x2048_S512x2048_1_1_0_0_n_n 2048 rfl rfl).symm d) = ix2 p d := funext fun a => Fin.ext (by
    match a with
    | ⟨0, _⟩ => exact lhs_row _ _
    | ⟨1, _⟩ => exact (lhs_contr _ _).trans hd)
  have er : dot_S512x2048_S2048x2048_S512x2048_1_1_0_0_n_n.rhsIdx (ix2 p q) ((ValueIdx.contrEquiv1 dot_S512x2048_S2048x2048_S512x2048_1_1_0_0_n_n 2048 rfl rfl).symm d) = ix2 q d := funext fun a => Fin.ext (by
    match a with
    | ⟨0, _⟩ => exact rhs_row _ _
    | ⟨1, _⟩ => exact (rhs_contr _ _).trans hd)
  rw [el, er]

/-- What the body stores, at entry (p, q): the product's entry plus the bias row at q (the three shape casts are of a
    shape to itself; the two changes of float format are the identity at exact values; the bias row is repeated down
    the 512 rows). -/
theorem stored_apply (x0 : Vec Ideal S512x2048 .f32) (x1 : Vec Ideal S2048x2048 .bf16) (x2 : Vec Ideal S1x2048 .f32)
    (p : Fin 512) (q : Fin 2048) :
    k2_pay1 (F := Ideal) x0 x1 x2 (ix2 p q) = (∑ d : Fin 2048, x0 (ix2 p d) * x1 (ix2 q d)) + x2 (ix2 (0 : Fin 1) q) := by
  unfold k2_pay1
  rw [truncf_apply, addf_apply, shapeCast_self, shapeCast_self, shapeCast_self, product_apply, broadcastTo_1b_ab_apply]
  rfl

/-! ## From the blocks to the array

Point t of the 32 reads rows 512·t … 512·t + 511 of the input, the whole weight and the whole bias row, and writes
back the same rows of the output. -/

/-- The zero offsets of a whole-buffer access, as a constant function. -/
theorem off_zero : (![0, 0] : Fin 2 → Nat) = fun _ => 0 :=
  funext fun a => by match a with | ⟨0, _⟩ => rfl | ⟨1, _⟩ => rfl

/-- The four index maps over the grid: the input's and the output's block row is the point's number, every other
    block coordinate is zero. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The stored block against the whole-array function, entry by entry: if row y₀ of the input block is row i₀ of the
    input array, row y₁ of the weight block is row i₁ of the weight, and the bias block at y₁ is the bias at i₁, then
    the stored entry at y is the array function's entry at i. -/
theorem stored_eq_projRowsB (x0 : Vec Ideal S512x2048 .f32) (x1 : Vec Ideal S2048x2048 .bf16) (x2 : Vec Ideal S1x2048 .f32)
    (X : Vec Ideal S16384x2048 .f32) (W : Vec Ideal S2048x2048 .bf16) (b : Vec Ideal S1x2048 .f32)
    (y : S512x2048.Idx) (i : S16384x2048.Idx)
    (h0 : ∀ d : Fin 2048, x0 (ix2 (y 0) d) = X (ix2 (i 0) d))
    (h1 : ∀ d : Fin 2048, x1 (ix2 (y 1) d) = W (ix2 (i 1) d))
    (h2 : x2 (ix2 (0 : Fin 1) (y 1)) = b (ix2 (0 : Fin 1) (i 1))) :
    k2_pay1 (F := Ideal) x0 x1 x2 y = projRowsB X W b i := by
  refine (congrArg (k2_pay1 (F := Ideal) x0 x1 x2) (eq_ix2 y)).trans ((stored_apply x0 x1 x2 (y 0) (y 1)).trans ?_)
  show _ = (∑ d : Fin 2048, X (ix2 (i 0) d) * W (ix2 (i 1) d)) + b (ix2 0 (i 1))
  rw [h2]
  exact congrArg (· + b (ix2 0 (i 1))) (Finset.sum_congr rfl fun d _ => by rw [h0 d, h1 d])

/-- What point t writes back is block t of the whole-array function of the three arrays as the region finds them. -/
theorem flushed_eq (c : Dev nD) (t : Fin cfg2.N) :
    (dat2 (F := Ideal) V c).flushed 3 t
      = ((cfg2.win 3).blk t).view.read (Elt Ideal) (projRowsB (V c main_v1) (V c main_v2) (V c main_v5)) := by
  show (cfg2.win 3).cut (grid2.coords t) ((dat2 V c).after 3 t) = _
  rw [after2_3]
  unfold out2_3
  rw [View.canon_unit_zero off_zero]
  simp only [View.ld_unit_zero (S := S512x2048) off_zero, View.ld_unit_zero (S := S2048x2048) off_zero, View.ld_unit_zero (S := S1x2048) off_zero]
  obtain ⟨e00, e01, e10, e11, e20, e21, e30, e31⟩ := index_facts t
  funext j
  refine stored_eq_projRowsB (iblk2 V c 0 t) (iblk2 V c 1 t) (iblk2 V c 2 t) (V c main_v1) (V c main_v2) (V c main_v5)
    ((cfg2.win 3).xinj (grid2.coords t) j) (((cfg2.win 3).blk t).view.emb j) ?_ ?_ ?_
  · -- row (j 0) of the input block is row 512·t + (j 0) of the input array
    intro d
    show V c main_v1 (((cfg2.win 0).blk t).view.emb (ix2 ((cfg2.win 3).xinj (grid2.coords t) j 0) d)) = V c main_v1 (ix2 ((((cfg2.win 3).blk t).view.emb j) 0) d)
    refine congrArg (V c main_v1) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 2048 + 1 * d.val = d.val; omega
  · -- the weight's one block is the weight
    intro d
    show V c main_v2 (((cfg2.win 1).blk t).view.emb (ix2 ((cfg2.win 3).xinj (grid2.coords t) j 1) d)) = V c main_v2 (ix2 ((((cfg2.win 3).blk t).view.emb j) 1) d)
    refine congrArg (V c main_v2) (funext fun a => Fin.ext ?_)
    match a with
    | ⟨0, _⟩ => show win2_1.index t (0 : Fin 2) * 2048 + 1 * (j 1).val = win2_3.index t (1 : Fin 2) * 2048 + 1 * (j 1).val; omega
    | ⟨1, _⟩ => show win2_1.index t (1 : Fin 2) * 2048 + 1 * d.val = d.val; omega
  · -- the bias row's one block is the bias row
    show V c main_v5 (((cfg2.win 2).blk t).view.emb (ix2 (0 : Fin 1) ((cfg2.win 3).xinj (grid2.coords t) j 1))) = V c main_v5 (ix2 (0 : Fin 1) ((((cfg2.win 3).blk t).view.emb j) 1))
    refine congrArg (V c main_v5) (funext fun a => Fin.ext ?_)
    match a with
    | ⟨0, _⟩ => show win2_2.index t (0 : Fin 2) * 1 + 1 * 0 = 0; omega
    | ⟨1, _⟩ => show win2_2.index t (1 : Fin 2) * 2048 + 1 * (j 1).val = win2_3.index t (1 : Fin 2) * 2048 + 1 * (j 1).val; omega

/-- An index of the output array is in point t's block iff, on each axis, its coordinate is in the block's range. -/
theorem mem_block (t : Fin cfg2.N) (i : S16384x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v9).slice (win2_3.rect t)).set ↔ _
  rw [View.set_slice_whole, Rect.mem_set_unit]
  exact Iff.rfl

/-- Every index of the output array is in some point's block: row r lies in the block of point r / 512. -/
theorem covered (i : S16384x2048.Idx) :
    ∃ t : Fin cfg2.N, (cfg2.win 3).flush t = true ∧ i ∈ ((cfg2.win 3).blk t).view.set := by
  have hN : cfg2.N = 32 := N_2
  have hi0 : (i 0).val < 16384 := (i 0).isLt
  have hi1 : (i 1).val < 2048 := (i 1).isLt
  have ht : (i 0).val / 512 < cfg2.N := by rw [hN]; omega
  obtain ⟨-, -, -, -, -, -, e30, e31⟩ := index_facts ⟨(i 0).val / 512, ht⟩
  have q0 : win2_3.index ⟨(i 0).val / 512, ht⟩ (0 : Fin 2) = (i 0).val / 512 := e30
  refine ⟨⟨(i 0).val / 512, ht⟩, flush2_3 _, ?_⟩
  rw [mem_block]
  intro a
  match a with
  | ⟨0, _⟩ => show win2_3.index ⟨(i 0).val / 512, ht⟩ (0 : Fin 2) * 512 ≤ (i 0).val ∧ (i 0).val < win2_3.index ⟨(i 0).val / 512, ht⟩ (0 : Fin 2) * 512 + 512; omega
  | ⟨1, _⟩ => show win2_3.index ⟨(i 0).val / 512, ht⟩ (1 : Fin 2) * 2048 ≤ (i 1).val ∧ (i 1).val < win2_3.index ⟨(i 0).val / 512, ht⟩ (1 : Fin 2) * 2048 + 2048; omega

/-- After region 2 its output array is `projRowsB` of the three arrays it reads, as the region finds them. -/
theorem final2 (c : Dev nD) :
    (dat2 (F := Ideal) V c).arrAt 3 cfg2.N = projRowsB (V c main_v1) (V c main_v2) (V c main_v5) :=
  (dat2 (F := Ideal) V c).arrAt_eq_of_cover 3 (projRowsB (V c main_v1) (V c main_v2) (V c main_v5))
    (fun t _ => flushed_eq V c t) covered

end Cert.KernelIdeal.Region2

end
-- ==== Proof.Region3.lean ====
/-
  Region 3 is the attention core. Its grid has 8 × 16 points (batch b, row block i). At a point the body reads
  rows 128·i … 128·i + 127 of qT[b] and all of k[b] and v[b]; it forms the logits z[r,j] = Σ_t q[r,t]·k[j,t], takes
  each row's maximum from minus infinity, exponentiates the differences, multiplies each exponential by the
  reciprocal of its row's sum, contracts the result with v[b], and stores the product transposed, so that the
  point's block of the output is out[b, ·, 128·i … 128·i + 127].

  First the body's stored value is read at an index (the two block products as sums over the contraction
  coordinate, the two row reductions as a fold of max and a plain sum, the column casts and broadcasts by their
  coordinates). Then each input block is read where the output block's place in the array says, every index of the
  output array (b, e, i') is found in the block of the point (b, i' / 128), and the blocks are joined into the array.
-/
import proofs.«420716_j39676907883957_3_alg».proof.Proof.Gen.KernelIdeal.Frame
import proofs.«420716_j39676907883957_3_alg».proof.Proof.Whole
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.KernelIdeal.Whole
open Idealize.ShloMosaic Idealize.ShloMosaic.TcCoe Idealize.ShloMosaic.ValueIdx Idealize.SL.Sem
open Idealize.ShloMosaic.Pipeline (Dat Cfg Window)

/-! ## The two block products read at an index

The logits contract the second axis of both factors; the weighted sum contracts the second axis of the weights with
the first axis of the values. Each is read, at an index, as a sum over the one contraction coordinate. -/

theorem lhs_qk_0 (i : S128x2048.Idx) (q : dot_S128x2048_S2048x2048_S128x2048_1_1_0_0_n_n.contr.Idx) :
    (dot_S128x2048_S2048x2048_S128x2048_1_1_0_0_n_n.lhsIdx i q 0).val = (i 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem lhs_qk_1 (i : S128x2048.Idx) (q : dot_S128x2048_S2048x2048_S128x2048_1_1_0_0_n_n.contr.Idx) :
    (dot_S128x2048_S2048x2048_S128x2048_1_1_0_0_n_n.lhsIdx i q 1).val = (q ⟨0, by decide⟩).val :=
  dot_S128x2048_S2048x2048_S128x2048_1_1_0_0_n_n.lhsIdx_val_of_single rfl i q
theorem rhs_qk_0 (i : S128x2048.Idx) (q : dot_S128x2048_S2048x2048_S128x2048_1_1_0_0_n_n.contr.Idx) :
    (dot_S128x2048_S2048x2048_S128x2048_1_1_0_0_n_n.rhsIdx i q 0).val = (i 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem rhs_qk_1 (i : S128x2048.Idx) (q : dot_S128x2048_S2048x2048_S128x2048_1_1_0_0_n_n.contr.Idx) :
    (dot_S128x2048_S2048x2048_S128x2048_1_1_0_0_n_n.rhsIdx i q 1).val = (q ⟨0, by decide⟩).val :=
  dot_S128x2048_S2048x2048_S128x2048_1_1_0_0_n_n.rhsIdx_val_of_single rfl i q

/-- The logits' block product: entry (r, j) is Σ_t q[r,t]·k[j,t]. -/
theorem logits_apply (q : FVec Ideal S128x2048 .f32) (k : FVec Ideal S2048x2048 .f32) (r : Fin 128) (j : Fin 2048) :
    matmul dot_S128x2048_S2048x2048_S128x2048_1_1_0_0_n_n (some .fp32) q k (constant (F := Ideal) S128x2048 .f32 0x00000000#32) (ix2 r j)
      = ∑ t : Fin 2048, q (ix2 r t) * k (ix2 j t) := by
  simp only [matmul]
  rw [Ideal.matmul_constant_zero_apply, ← Equiv.sum_comp (ValueIdx.contrEquiv1 dot_S128x2048_S2048x2048_S128x2048_1_1_0_0_n_n 2048 rfl rfl).symm]
  refine Finset.sum_congr rfl fun t _ => ?_
  have hk := ValueIdx.contrEquiv1_symm_val dot_S128x2048_S2048x2048_S128x2048_1_1_0_0_n_n 2048 rfl rfl t
  have el : dot_S128x2048_S2048x2048_S128x2048_1_1_0_0_n_n.lhsIdx (ix2 r j) ((ValueIdx.contrEquiv1 dot_S128x2048_S2048x2048_S128x2048_1_1_0_0_n_n 2048 rfl rfl).symm t) = ix2 r t := funext fun a => Fin.ext (by
    match a with
    | ⟨0, _⟩ => exact lhs_qk_0 _ _
    | ⟨1, _⟩ => exact (lhs_qk_1 _ _).trans hk)
  have er : dot_S128x2048_S2048x2048_S128x2048_1_1_0_0_n_n.rhsIdx (ix2 r j) ((ValueIdx.contrEquiv1 dot_S128x2048_S2048x2048_S128x2048_1_1_0_0_n_n 2048 rfl rfl).symm t) = ix2 j t := funext fun a => Fin.ext (by
    match a with
    | ⟨0, _⟩ => exact rhs_qk_0 _ _
    | ⟨1, _⟩ => exact (rhs_qk_1 _ _).trans hk)
  rw [el, er]

theorem lhs_av_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_av_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_av_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_av_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The weighted sum's block product: entry (r, e) is Σ_j a[r,j]·v[j,e]. -/
theorem weighted_apply (a : FVec Ideal S128x2048 .bf16) (v : FVec Ideal S2048x2048 .bf16) (r : Fin 128) (e : Fin 2048) :
    matmul dot_S128x2048_S2048x2048_S128x2048_1_0_0_1_n_n none a v (constant (F := Ideal) S128x2048 .f32 0x00000000#32) (ix2 r e)
      = ∑ j : Fin 2048, a (ix2 r j) * v (ix2 j e) := by
  simp only [matmul]
  rw [Ideal.matmul_constant_zero_apply, ← Equiv.sum_comp (ValueIdx.contrEquiv1 dot_S128x2048_S2048x2048_S128x2048_1_0_0_1_n_n 2048 rfl rfl).symm]
  refine Finset.sum_congr rfl fun j _ => ?_
  have hk := ValueIdx.contrEquiv1_symm_val dot_S128x2048_S2048x2048_S128x2048_1_0_0_1_n_n 2048 rfl rfl j
  have el : dot_S128x2048_S2048x2048_S128x2048_1_0_0_1_n_n.lhsIdx (ix2 r e) ((ValueIdx.contrEquiv1 dot_S128x2048_S2048x2048_S128x2048_1_0_0_1_n_n 2048 rfl rfl).symm j) = ix2 r j := funext fun a => Fin.ext (by
    match a with
    | ⟨0, _⟩ => exact lhs_av_0 _ _
    | ⟨1, _⟩ => exact (lhs_av_1 _ _).trans hk)
  have er : dot_S128x2048_S2048x2048_S128x2048_1_0_0_1_n_n.rhsIdx (ix2 r e) ((ValueIdx.contrEquiv1 dot_S128x2048_S2048x2048_S128x2048_1_0_0_1_n_n 2048 rfl rfl).symm j) = ix2 j e := funext fun a => Fin.ext (by
    match a with
    | ⟨0, _⟩ => exact (rhs_av_0 _ _).trans hk
    | ⟨1, _⟩ => exact rhs_av_1 _ _)
  rw [el, er]

/-! ## The row reductions and the column casts read at an index -/

/-- Row r of a [128] vector with column j put back on the reduced axis is the index (r, j). -/
theorem lift_row (r : Fin 128) (j : Fin 2048) : reduces_S128x2048_S128.lift (ix1 r) j = ix2 r j :=
  funext fun a => Fin.ext (by match a with | ⟨0, _⟩ => rfl | ⟨1, _⟩ => rfl)

/-- The row maximum of a [128,2048] block at row r: the fold of max from minus infinity over the row. -/
theorem rowMax_apply (z : FVec Ideal S128x2048 .f32) (r : Fin 128) :
    multiReduction (F := Ideal) .maximumf [1] S128 z 0xFF800000#32 reduces_S128x2048_S128 (.inl rfl) rfl (ix1 r)
      = Spec.rowMax (fun j => z (ix2 r j)) := by
  refine (Ideal.multiReduction_maximumf_single z 0xFF800000#32 reduces_S128x2048_S128 (.inl rfl) rfl (ix1 r)).trans ?_
  have e : (z ∘ reduces_S128x2048_S128.lift (ix1 r)) = fun j : Fin 2048 => z (ix2 r j) :=
    funext fun j => congrArg z (lift_row r j)
  rw [e]
  rfl

/-- The row sum of a [128,2048] block at row r: the plain sum over the row. -/
theorem rowSum_apply (p : FVec Ideal S128x2048 .f32) (r : Fin 128) :
    multiReduction (F := Ideal) .add [1] S128 p 0x00000000#32 reduces_S128x2048_S128 (.inl rfl) rfl (ix1 r)
      = ∑ j : Fin 2048, p (ix2 r j) := by
  refine (Ideal.multiReduction_add_single p 0x00000000#32 reduces_S128x2048_S128 (.inl rfl) rfl (ix1 r)).trans ?_
  exact Finset.sum_congr rfl fun j _ => congrArg p (lift_row r j)

/-- A [128] vector cast to a [128,1] column reads, at (r, u), the vector at r. -/
theorem column_apply {α : Type} (x : S128.Idx → α) (r : Fin 128) (u : Fin 1) :
    shapeCast S128x1 x shapeCasts_S128_S128x1 (ix2 r u) = x (ix1 r) :=
  shapeCast_apply x shapeCasts_S128_S128x1 _ _ (by
    have hu : u.val = 0 := by omega
    rw [Shape.rowMajor_val_one, Shape.rowMajor_val_two]
    show r.val = r.val * 1 + u.val
    omega)

/-- A [128,1] column broadcast over 2048 columns reads, at (r, j), the column at (r, 0). -/
theorem spread_apply {α : Type} (x : S128x1.Idx → α) (r : Fin 128) (j : Fin 2048) :
    broadcastTo S128x2048 x broadcasts_S128x1_S128x2048 (ix2 r j) = x (ix2 r (0 : Fin 1)) := by
  refine broadcastTo_apply x broadcasts_S128x1_S128x2048 (ix2 r j) (ix2 r (0 : Fin 1)) fun ax => ?_
  match ax with
  | ⟨0, _⟩ => show r.val = if (128 : Nat) = 1 then 0 else r.val; rw [if_neg (by decide)]
  | ⟨1, _⟩ => show (0 : Nat) = if (1 : Nat) = 1 then 0 else j.val; rw [if_pos rfl]

/-! ## The body's value in three stages: logits, exponentials, weights -/

/-- The logits of a block: the 128 rows of q against every row of k. -/
def logitsB (v0 : Vec Ideal S1x128x2048 .f32) (v2 : Vec Ideal S1x2048x2048 .f32) : FVec Ideal S128x2048 .f32 :=
  matmul dot_S128x2048_S2048x2048_S128x2048_1_1_0_0_n_n (some .fp32) (shapeCast S128x2048 v0 shapeCasts_S1x128x2048_S128x2048 : FVec Ideal S128x2048 .f32)
    (shapeCast S2048x2048 v2 shapeCasts_S1x2048x2048_S2048x2048 : FVec Ideal S2048x2048 .f32) (constant (F := Ideal) S128x2048 .f32 0x00000000#32)

theorem logitsB_apply (v0 : Vec Ideal S1x128x2048 .f32) (v2 : Vec Ideal S1x2048x2048 .f32) (r : Fin 128) (j : Fin 2048) :
    logitsB v0 v2 (ix2 r j) = ∑ t : Fin 2048, v0 (ix3 (0 : Fin 1) r t) * v2 (ix3 (0 : Fin 1) j t) := by
  unfold logitsB
  rw [logits_apply]
  refine Finset.sum_congr rfl fun t _ => ?_
  rw [shapeCast_1ab_ab_apply, shapeCast_1ab_ab_apply]

/-- Each logit minus its row's maximum, exponentiated. -/
def expB (z : FVec Ideal S128x2048 .f32) : FVec Ideal S128x2048 .f32 :=
  exp (subf z (broadcastTo S128x2048 (shapeCast S128x1
    (multiReduction (F := Ideal) .maximumf [1] S128 z 0xFF800000#32 reduces_S128x2048_S128 (.inl rfl) rfl)
    shapeCasts_S128_S128x1) broadcasts_S128x1_S128x2048))

theorem expB_apply (z : FVec Ideal S128x2048 .f32) (r : Fin 128) (j : Fin 2048) :
    expB z (ix2 r j) = Ideal.exp (z (ix2 r j) - Spec.rowMax (fun j' => z (ix2 r j'))) := by
  unfold expB
  show Ideal.exp (z (ix2 r j) - broadcastTo S128x2048 _ broadcasts_S128x1_S128x2048 (ix2 r j)) = _
  rw [spread_apply, column_apply, rowMax_apply]

/-- Each exponential times the reciprocal of its row's sum. -/
def weightsB (p : FVec Ideal S128x2048 .f32) : FVec Ideal S128x2048 .f32 :=
  mulf p (broadcastTo S128x2048 (divf (broadcast S128x1 (Scalar.ofBits (F := Ideal) .f32 0x3F800000#32))
    (shapeCast S128x1 (multiReduction (F := Ideal) .add [1] S128 p 0x00000000#32 reduces_S128x2048_S128 (.inl rfl) rfl)
      shapeCasts_S128_S128x1)) broadcasts_S128x1_S128x2048)

theorem weightsB_apply (p : FVec Ideal S128x2048 .f32) (r : Fin 128) (j : Fin 2048) :
    weightsB p (ix2 r j) = p (ix2 r j) * Ideal.div Spec.oneW (∑ j' : Fin 2048, p (ix2 r j')) := by
  unfold weightsB
  rw [mulf_apply, spread_apply, divf_apply, broadcast_apply, column_apply, rowSum_apply]
  rfl

/-- The body's stored value is the weights against the values, transposed, under a leading unit axis. -/
theorem pay_eq (v0 : Vec Ideal S1x128x2048 .f32) (v2 : Vec Ideal S1x2048x2048 .f32) (v4 : Vec Ideal S1x2048x2048 .bf16) :
    k3_pay1 (F := Ideal) v0 v2 v4
      = shapeCast S1x2048x128 (transpose S2048x128 [1, 0]
          (matmul dot_S128x2048_S2048x2048_S128x2048_1_0_0_1_n_n none (truncf .bf16 (weightsB (expB (logitsB v0 v2))) bitsLt_bf16_f32)
            (shapeCast S2048x2048 v4 shapeCasts_S1x2048x2048_S2048x2048 : FVec Ideal S2048x2048 .bf16) (constant (F := Ideal) S128x2048 .f32 0x00000000#32))
          transposes_S128x2048_p1_0_S2048x128) shapeCasts_S2048x128_S1x2048x128 := rfl

/-- THE BODY AT AN INDEX: entry (·, e, r) of what the body stores is Σ_j softMul(z)_j · v[j,e] with z_j' = Σ_t q[r,t]·k[j',t]. -/
theorem pay_apply (v0 : Vec Ideal S1x128x2048 .f32) (v2 : Vec Ideal S1x2048x2048 .f32) (v4 : Vec Ideal S1x2048x2048 .bf16)
    (u : Fin 1) (e : Fin 2048) (r : Fin 128) :
    k3_pay1 (F := Ideal) v0 v2 v4 (ix3 u e r)
      = ∑ j : Fin 2048, Spec.softMul (fun j' => ∑ t : Fin 2048, v0 (ix3 (0 : Fin 1) r t) * v2 (ix3 (0 : Fin 1) j' t)) j
          * v4 (ix3 (0 : Fin 1) j e) := by
  rw [pay_eq, shapeCast_ab_1ab_apply, transpose_ix2_apply, weighted_apply]
  refine Finset.sum_congr rfl fun j _ => ?_
  rw [truncf_apply, weightsB_apply, shapeCast_1ab_ab_apply]
  simp only [expB_apply, logitsB_apply]
  rfl

/-! ## From blocks to the array -/

theorem zero3 : (![0, 0, 0] : Fin 3 → Nat) = fun _ => 0 := funext fun a => by fin_cases a <;> rfl

/-- The index maps over the grid: the query block sits at (batch, row block, 0), the key and value blocks at
    (batch, 0, 0), the output block at (batch, 0, row block); the batch is below 8 and the row block below 16. -/
theorem idx_facts : ∀ t : Fin cfg3.N,
    win3_0.index t (0 : Fin 3) = win3_3.index t (0 : Fin 3)
    ∧ win3_0.index t (1 : Fin 3) = win3_3.index t (2 : Fin 3)
    ∧ win3_0.index t (2 : Fin 3) = 0
    ∧ win3_1.index t (0 : Fin 3) = win3_3.index t (0 : Fin 3)
    ∧ win3_1.index t (1 : Fin 3) = 0
    ∧ win3_1.index t (2 : Fin 3) = 0
    ∧ win3_2.index t (0 : Fin 3) = win3_3.index t (0 : Fin 3)
    ∧ win3_2.index t (1 : Fin 3) = 0
    ∧ win3_2.index t (2 : Fin 3) = 0
    ∧ win3_3.index t (0 : Fin 3) ≤ 7
    ∧ win3_3.index t (1 : Fin 3) = 0
    ∧ win3_3.index t (2 : Fin 3) ≤ 15 :=
  (by decide +kernel : ∀ t : Fin grid3.N, _)

/-- Every (batch, row block) pair is some grid point's output block. -/
theorem idx_onto : ∀ (b : Fin 8) (i : Fin 16), ∃ t : Fin cfg3.N, win3_3.index t = ![b.val, 0, i.val] :=
  (by decide +kernel : ∀ (b : Fin 8) (i : Fin 16), ∃ t : Fin grid3.N, win3_3.index t = ![b.val, 0, i.val])

variable (V : (c : Dev nD) → (b : Ref sig .tc) → Buf (Elt Ideal) ((c : Thread nD τ).loc b))

/-- The query block at a point reads the query array at (batch, row block · 128 + r, s). -/
theorem qblk_apply (c : Dev nD) (t : Fin cfg3.N) (r : Fin 128) (s : Fin 2048) (k : S8x2048x2048.Idx)
    (h0 : (k 0).val = win3_3.index t (0 : Fin 3)) (h1 : (k 1).val = win3_3.index t (2 : Fin 3) * 128 + r.val)
    (h2 : (k 2).val = s.val) :
    (iblk3 V c 0 t : Vec Ideal S1x128x2048 .f32) (ix3 (0 : Fin 1) r s) = (V c main_v6 : Vec Ideal S8x2048x2048 .f32) k := by
  obtain ⟨e0, e1, e2, -⟩ := idx_facts t
  show V c main_v6 (((cfg3.win 0).blk t).view.emb (ix3 (0 : Fin 1) r s)) = V c main_v6 k
  refine congrArg (V c main_v6) (funext fun a => Fin.ext ?_)
  match a with
  | ⟨0, _⟩ => show win3_0.index t (0 : Fin 3) * 1 + 1 * 0 = (k 0).val; omega
  | ⟨1, _⟩ => show win3_0.index t (1 : Fin 3) * 128 + 1 * r.val = (k 1).val; omega
  | ⟨2, _⟩ => show win3_0.index t (2 : Fin 3) * 2048 + 1 * s.val = (k 2).val; omega

/-- The key block at a point reads the key array at (batch, j, s). -/
theorem kblk_apply (c : Dev nD) (t : Fin cfg3.N) (j : Fin 2048) (s : Fin 2048) (k : S8x2048x2048.Idx)
    (h0 : (k 0).val = win3_3.index t (0 : Fin 3)) (h1 : (k 1).val = j.val) (h2 : (k 2).val = s.val) :
    (iblk3 V c 1 t : Vec Ideal S1x2048x2048 .f32) (ix3 (0 : Fin 1) j s) = (V c main_v8 : Vec Ideal S8x2048x2048 .f32) k := by
  obtain ⟨-, -, -, e0, e1, e2, -⟩ := idx_facts t
  show V c main_v8 (((cfg3.win 1).blk t).view.emb (ix3 (0 : Fin 1) j s)) = V c main_v8 k
  refine congrArg (V c main_v8) (funext fun a => Fin.ext ?_)
  match a with
  | ⟨0, _⟩ => show win3_1.index t (0 : Fin 3) * 1 + 1 * 0 = (k 0).val; omega
  | ⟨1, _⟩ => show win3_1.index t (1 : Fin 3) * 2048 + 1 * j.val = (k 1).val; omega
  | ⟨2, _⟩ => show win3_1.index t (2 : Fin 3) * 2048 + 1 * s.val = (k 2).val; omega

/-- The value block at a point reads the value array at (batch, j, e). -/
theorem vblk_apply (c : Dev nD) (t : Fin cfg3.N) (j : Fin 2048) (e : Fin 2048) (k : S8x2048x2048.Idx)
    (h0 : (k 0).val = win3_3.index t (0 : Fin 3)) (h1 : (k 1).val = j.val) (h2 : (k 2).val = e.val) :
    (iblk3 V c 2 t : Vec Ideal S1x2048x2048 .bf16) (ix3 (0 : Fin 1) j e) = (V c main_v10 : Vec Ideal S8x2048x2048 .bf16) k := by
  obtain ⟨-, -, -, -, -, -, e0, e1, e2, -⟩ := idx_facts t
  show V c main_v10 (((cfg3.win 2).blk t).view.emb (ix3 (0 : Fin 1) j e)) = V c main_v10 k
  refine congrArg (V c main_v10) (funext fun a => Fin.ext ?_)
  match a with
  | ⟨0, _⟩ => show win3_2.index t (0 : Fin 3) * 1 + 1 * 0 = (k 0).val; omega
  | ⟨1, _⟩ => show win3_2.index t (1 : Fin 3) * 2048 + 1 * j.val = (k 1).val; omega
  | ⟨2, _⟩ => show win3_2.index t (2 : Fin 3) * 2048 + 1 * e.val = (k 2).val; omega

/-- Where entry (u, e, r) of a point's output block sits in the output array: (batch, e, row block · 128 + r). -/
theorem oblk_emb (t : Fin cfg3.N) (u : Fin 1) (e : Fin 2048) (r : Fin 128) :
    ((((cfg3.win 3).blk t).view.emb (ix3 u e r)) 0).val = win3_3.index t (0 : Fin 3)
    ∧ ((((cfg3.win 3).blk t).view.emb (ix3 u e r)) 1).val = e.val
    ∧ ((((cfg3.win 3).blk t).view.emb (ix3 u e r)) 2).val = win3_3.index t (2 : Fin 3) * 128 + r.val := by
  obtain ⟨-, -, -, -, -, -, -, -, -, -, e1, -⟩ := idx_facts t
  have hu : u.val = 0 := by omega
  refine ⟨?_, ?_, ?_⟩
  · show win3_3.index t (0 : Fin 3) * 1 + 1 * u.val = _; omega
  · show win3_3.index t (1 : Fin 3) * 2048 + 1 * e.val = _; omega
  · show win3_3.index t (2 : Fin 3) * 128 + 1 * r.val = _; omega

/-- WHAT A POINT WRITES BACK is its block of the attention of the three arrays as the region finds them. -/
theorem flushed_eq (c : Dev nD) (t : Fin cfg3.N) :
    (dat3 (F := Ideal) V c).flushed 3 t
      = ((cfg3.win 3).blk t).view.read (Elt Ideal) (attend (V c main_v6) (V c main_v8) (V c main_v10)) := by
  show (cfg3.win 3).cut (grid3.coords t) ((dat3 V c).after 3 t) = _
  rw [after3_3]
  unfold out3_3
  rw [View.canon_unit_zero zero3]
  simp only [View.ld_unit_zero (S := S1x128x2048) zero3, View.ld_unit_zero (S := S1x2048x2048) zero3]
  funext y
  obtain ⟨u, e, r, rfl⟩ : ∃ (u : Fin 1) (e : Fin 2048) (r : Fin 128), y = ix3 u e r := ⟨y 0, y 1, y 2, eq_ix3 y⟩
  show k3_pay1 (F := Ideal) (iblk3 V c 0 t) (iblk3 V c 1 t) (iblk3 V c 2 t) (ix3 u e r)
    = attend (V c main_v6) (V c main_v8) (V c main_v10) (((cfg3.win 3).blk t).view.emb (ix3 u e r))
  refine (pay_apply (iblk3 V c 0 t) (iblk3 V c 1 t) (iblk3 V c 2 t) u e r).trans ?_
  obtain ⟨i0, i1, i2⟩ := oblk_emb t u e r
  simp only [attend]
  refine Finset.sum_congr rfl fun j _ => ?_
  refine congrArg₂ (fun Z w => Spec.softMul Z j * w) (funext fun j' => Finset.sum_congr rfl fun s _ => ?_) ?_
  · exact congrArg₂ (fun a b : EReal => a * b) (qblk_apply V c t r s _ i0 i2 rfl) (kblk_apply V c t j' s _ i0 rfl rfl)
  · exact vblk_apply V c t j e _ i0 rfl i1

/-- An index of the output array is in a point's block iff each coordinate is in the block's range on its axis. -/
theorem mem_blk (t : Fin cfg3.N) (i : S8x2048x2048.Idx) :
    i ∈ ((cfg3.win 3).blk t).view.set ↔ ∀ a : Fin 3, win3_3.index t a * S1x2048x128.size a ≤ (i a).val
      ∧ (i a).val < win3_3.index t a * S1x2048x128.size a + S1x2048x128.size a := by
  show i ∈ ((View.whole main_v11).slice (win3_3.rect t)).set ↔ _
  rw [View.set_slice_whole, Rect.mem_set_unit]
  exact Iff.rfl

/-- Every index (b, e, i') of the output array is in the block of the point (b, i' / 128), which writes back. -/
theorem covered (i : S8x2048x2048.Idx) :
    ∃ t : Fin cfg3.N, (cfg3.win 3).flush t = true ∧ i ∈ ((cfg3.win 3).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 2).val / 128, by omega⟩
  have q0 : win3_3.index t (0 : Fin 3) = (i 0).val := congrFun ht 0
  have q1 : win3_3.index t (1 : Fin 3) = 0 := congrFun ht 1
  have q2 : win3_3.index t (2 : Fin 3) = (i 2).val / 128 := congrFun ht 2
  refine ⟨t, flush3_3 t, ?_⟩
  rw [mem_blk]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 2048 ≤ (i 1).val ∧ (i 1).val < win3_3.index t (1 : Fin 3) * 2048 + 2048; omega
  | ⟨2, _⟩ => show win3_3.index t (2 : Fin 3) * 128 ≤ (i 2).val ∧ (i 2).val < win3_3.index t (2 : Fin 3) * 128 + 128; omega

/-- After region 3 its output array is `attend` of the three arrays it reads, as the region finds them. -/
theorem final3 (c : Dev nD) :
    (dat3 (F := Ideal) V c).arrAt 3 cfg3.N = attend (V c main_v6) (V c main_v8) (V c main_v10) := by
  exact (dat3 (F := Ideal) V c).arrAt_eq_of_cover 3 (attend (V c main_v6) (V c main_v8) (V c main_v10))
    (fun t _ => flushed_eq V c t) covered

end Cert.KernelIdeal.Region3

end
-- ==== Proof.KChain.lean ====
/-
  The contents of the result buffer at the last boundary of the kernel program's run, walked back to the
  arguments. The run's boundaries are a fold: a stretch of host operations applies its operations, a region
  replaces its output array by what its write-backs leave and keeps every other buffer. So a buffer is followed
  backwards through the boundaries that do not write it until the one that does:

    result      ← region 3 of (qT, k as a stack, v as a stack)
    qT          ← region 0 of (query input, its weight, its bias as a column)
    k as stack  ← reshape of region 1 of (key input flattened, its weight, its bias as a row)
    v as stack  ← reshape of region 2 of (value input flattened, its weight narrowed, its bias as a row)

  and each flattened input, column or row bias and the narrowed weight is one host operation of an argument,
  which nothing writes.
-/
import proofs.«420716_j39676907883957_3_alg».proof.Proof.Gen.KernelIdeal.Frame
import proofs.«420716_j39676907883957_3_alg».proof.Proof.Whole
import proofs.«420716_j39676907883957_3_alg».proof.Proof.Region0
import proofs.«420716_j39676907883957_3_alg».proof.Proof.Region1
import proofs.«420716_j39676907883957_3_alg».proof.Proof.Region2
import proofs.«420716_j39676907883957_3_alg».proof.Proof.Region3
import Idealize.ShloMosaic.Lib.StableHlo.Run

set_option maxRecDepth 16384

noncomputable section

namespace Cert.KernelIdeal.Chain

open Cert.KernelIdeal Cert.KernelIdeal.Gen Cert.KernelIdeal.Whole
open Idealize.ShloMosaic Idealize.ShloMosaic.TcCoe Idealize.SL.Sem Idealize.ShloMosaic.StableHlo
variable (m : (ℓ : Loc nD τ sig) → Buf (Elt Ideal) ℓ) (ρ : Dev nD → PrngReg)

/-- A stretch of host operations leaves a buffer none of them writes as it found it. -/
local macro "stretch_keeps" : tactic => `(tactic|
  exact StableHlo.after_of_forall_not_mem _ _ (List.forall_iff_forall_mem.mp (by
    simp only [hostOps0, hostOps2, hostOps3, List.Forall, StableHlo.unary_writes, StableHlo.reshape_writes, Finset.mem_singleton]
    repeat' apply And.intro
    all_goals exact StableHlo.devRef_ne_of_ne (by decide))))

/-! ## Region 0's entry: the first stretch has run -/

theorem at1_arg0 (c : Dev nD) : V1 m ρ c main_arg0 = (m ((c : Thread nD τ).loc main_arg0)) :=
  (show W1 m ρ c (Proc.devRef .tc main_arg0) = W0 m ρ c (Proc.devRef .tc main_arg0) by stretch_keeps).trans rfl
theorem at1_arg3 (c : Dev nD) : V1 m ρ c main_arg3 = (m ((c : Thread nD τ).loc main_arg3)) :=
  (show W1 m ρ c (Proc.devRef .tc main_arg3) = W0 m ρ c (Proc.devRef .tc main_arg3) by stretch_keeps).trans rfl
theorem at1_arg5 (c : Dev nD) : W1 m ρ c (Proc.devRef .tc main_arg5) = (m ((c : Thread nD τ).loc main_arg5)) :=
  (show W1 m ρ c (Proc.devRef .tc main_arg5) = W0 m ρ c (Proc.devRef .tc main_arg5) by stretch_keeps).trans rfl
/-- The query's bias as a column. -/
theorem at1_v3 (c : Dev nD) : V1 m ρ c main_v3 = shapeCast S2048x1 (m ((c : Thread nD τ).loc main_arg4)) shapeCasts_S2048_S2048x1 := by
  show StableHlo.after hostOps0 (W0 m ρ c) (Proc.devRef .tc main_v3) = _
  after_results
  rfl
/-- The key input flattened to rows. -/
theorem at1_v0 (c : Dev nD) : W1 m ρ c (Proc.devRef .tc main_v0) = shapeCast S16384x2048 (m ((c : Thread nD τ).loc main_arg1)) shapeCasts_S8x2048x2048_S16384x2048 := by
  show StableHlo.after hostOps0 (W0 m ρ c) (Proc.devRef .tc main_v0) = _
  after_results
  rfl
/-- The value input flattened to rows. -/
theorem at1_v1 (c : Dev nD) : W1 m ρ c (Proc.devRef .tc main_v1) = shapeCast S16384x2048 (m ((c : Thread nD τ).loc main_arg2)) shapeCasts_S8x2048x2048_S16384x2048 := by
  show StableHlo.after hostOps0 (W0 m ρ c) (Proc.devRef .tc main_v1) = _
  after_results
  rfl
/-- The value's weight in the narrower format. -/
theorem at1_v2 (c : Dev nD) : W1 m ρ c (Proc.devRef .tc main_v2)
    = (truncf (F := Ideal) .bf16 ((m ((c : Thread nD τ).loc main_arg7)) : FVec Ideal S2048x2048 .f32) bitsLt_bf16_f32 : FVec Ideal S2048x2048 .bf16) := by
  show StableHlo.after hostOps0 (W0 m ρ c) (Proc.devRef .tc main_v2) = _
  after_results
/-- The key's and the value's biases as rows. -/
theorem at1_v4 (c : Dev nD) : W1 m ρ c (Proc.devRef .tc main_v4) = shapeCast S1x2048 (m ((c : Thread nD τ).loc main_arg6)) shapeCasts_S2048_S1x2048 := by
  show StableHlo.after hostOps0 (W0 m ρ c) (Proc.devRef .tc main_v4) = _
  after_results
  rfl
theorem at1_v5 (c : Dev nD) : W1 m ρ c (Proc.devRef .tc main_v5) = shapeCast S1x2048 (m ((c : Thread nD τ).loc main_arg8)) shapeCasts_S2048_S1x2048 := by
  show StableHlo.after hostOps0 (W0 m ρ c) (Proc.devRef .tc main_v5) = _
  after_results
  rfl

/-! ## Region 0's exit: qT -/

theorem at2_v6 (c : Dev nD) : W2 m ρ c (Proc.devRef .tc main_v6)
    = projT (m ((c : Thread nD τ).loc main_arg0)) (m ((c : Thread nD τ).loc main_arg3)) (shapeCast S2048x1 (m ((c : Thread nD τ).loc main_arg4)) shapeCasts_S2048_S2048x1) := by
  refine (W2_arr m ρ c 3).trans ((Region0.final0 (V1 m ρ) c).trans ?_)
  rw [at1_arg0 m ρ c, at1_arg3 m ρ c, at1_v3 m ρ c]

/-! ## Region 1's entry and exit: k over the flattened rows -/

theorem at2_v0 (c : Dev nD) : V2 m ρ c main_v0 = shapeCast S16384x2048 (m ((c : Thread nD τ).loc main_arg1)) shapeCasts_S8x2048x2048_S16384x2048 :=
  (W2_of_ne m ρ c main_v0 (by decide)).trans (at1_v0 m ρ c)
theorem at2_arg5 (c : Dev nD) : V2 m ρ c main_arg5 = (m ((c : Thread nD τ).loc main_arg5)) :=
  (W2_of_ne m ρ c main_arg5 (by decide)).trans (at1_arg5 m ρ c)
theorem at2_v4 (c : Dev nD) : V2 m ρ c main_v4 = shapeCast S1x2048 (m ((c : Thread nD τ).loc main_arg6)) shapeCasts_S2048_S1x2048 :=
  (W2_of_ne m ρ c main_v4 (by decide)).trans (at1_v4 m ρ c)

theorem at3_v7 (c : Dev nD) : W3 m ρ c (Proc.devRef .tc main_v7)
    = projRows (shapeCast S16384x2048 (m ((c : Thread nD τ).loc main_arg1)) shapeCasts_S8x2048x2048_S16384x2048) (m ((c : Thread nD τ).loc main_arg5))
        (shapeCast S1x2048 (m ((c : Thread nD τ).loc main_arg6)) shapeCasts_S2048_S1x2048) := by
  refine (W3_arr m ρ c 3).trans ((Region1.final1 (V2 m ρ) c).trans ?_)
  rw [at2_v0 m ρ c, at2_arg5 m ρ c, at2_v4 m ρ c]

/-! ## The second stretch: k as a stack; region 2's entry and exit: v over the flattened rows -/

theorem at4_v8 (c : Dev nD) : W4 m ρ c (Proc.devRef .tc main_v8)
    = shapeCast S8x2048x2048 (W3 m ρ c (Proc.devRef .tc main_v7)) shapeCasts_S16384x2048_S8x2048x2048 := by
  show StableHlo.after hostOps2 (W3 m ρ c) (Proc.devRef .tc main_v8) = _
  after_results
  rfl

/-- A buffer the first stretch wrote and neither region 0, region 1 nor the second stretch writes. -/
theorem at4_of_at1 (c : Dev nD) (b : Ref sig .tc) (h0 : ∀ w, Pipeline.arrRef spec0 w ≠ b) (h1 : ∀ w, Pipeline.arrRef spec1 w ≠ b)
    (h2 : W4 m ρ c (Proc.devRef .tc b) = W3 m ρ c (Proc.devRef .tc b)) :
    W4 m ρ c (Proc.devRef .tc b) = W1 m ρ c (Proc.devRef .tc b) :=
  h2.trans ((W3_of_ne m ρ c b h1).trans (W2_of_ne m ρ c b h0))

theorem at4_v1 (c : Dev nD) : V4 m ρ c main_v1 = shapeCast S16384x2048 (m ((c : Thread nD τ).loc main_arg2)) shapeCasts_S8x2048x2048_S16384x2048 :=
  (at4_of_at1 m ρ c main_v1 (by decide) (by decide) (by stretch_keeps)).trans (at1_v1 m ρ c)
theorem at4_v2 (c : Dev nD) : V4 m ρ c main_v2
    = (truncf (F := Ideal) .bf16 ((m ((c : Thread nD τ).loc main_arg7)) : FVec Ideal S2048x2048 .f32) bitsLt_bf16_f32 : FVec Ideal S2048x2048 .bf16) :=
  (at4_of_at1 m ρ c main_v2 (by decide) (by decide) (by stretch_keeps)).trans (at1_v2 m ρ c)
theorem at4_v5 (c : Dev nD) : V4 m ρ c main_v5 = shapeCast S1x2048 (m ((c : Thread nD τ).loc main_arg8)) shapeCasts_S2048_S1x2048 :=
  (at4_of_at1 m ρ c main_v5 (by decide) (by decide) (by stretch_keeps)).trans (at1_v5 m ρ c)

theorem at5_v9 (c : Dev nD) : W5 m ρ c (Proc.devRef .tc main_v9)
    = projRowsB (shapeCast S16384x2048 (m ((c : Thread nD τ).loc main_arg2)) shapeCasts_S8x2048x2048_S16384x2048)
        (truncf (F := Ideal) .bf16 ((m ((c : Thread nD τ).loc main_arg7)) : FVec Ideal S2048x2048 .f32) bitsLt_bf16_f32 : FVec Ideal S2048x2048 .bf16)
        (shapeCast S1x2048 (m ((c : Thread nD τ).loc main_arg8)) shapeCasts_S2048_S1x2048) := by
  refine (W5_arr m ρ c 3).trans ((Region2.final2 (V4 m ρ) c).trans ?_)
  rw [at4_v1 m ρ c, at4_v2 m ρ c, at4_v5 m ρ c]

/-! ## The third stretch: v as a stack; region 3's entry -/

theorem at6_v10 (c : Dev nD) : V6 m ρ c main_v10
    = shapeCast S8x2048x2048 (W5 m ρ c (Proc.devRef .tc main_v9)) shapeCasts_S16384x2048_S8x2048x2048 := by
  show StableHlo.after hostOps3 (W5 m ρ c) (Proc.devRef .tc main_v10) = _
  after_results
  rfl

theorem at6_v8 (c : Dev nD) : V6 m ρ c main_v8
    = shapeCast S8x2048x2048 (W3 m ρ c (Proc.devRef .tc main_v7)) shapeCasts_S16384x2048_S8x2048x2048 :=
  (show W6 m ρ c (Proc.devRef .tc main_v8) = W5 m ρ c (Proc.devRef .tc main_v8) by stretch_keeps).trans
    ((W5_of_ne m ρ c main_v8 (by decide)).trans (at4_v8 m ρ c))

theorem at6_v6 (c : Dev nD) : V6 m ρ c main_v6 = W2 m ρ c (Proc.devRef .tc main_v6) :=
  (show W6 m ρ c (Proc.devRef .tc main_v6) = W5 m ρ c (Proc.devRef .tc main_v6) by stretch_keeps).trans
    ((W5_of_ne m ρ c main_v6 (by decide)).trans
      ((show W4 m ρ c (Proc.devRef .tc main_v6) = W3 m ρ c (Proc.devRef .tc main_v6) by stretch_keeps).trans
        (W3_of_ne m ρ c main_v6 (by decide))))

/-! ## The result -/

/-- What the result buffer holds at the last boundary of the run is the composed function of the arguments'
    launch contents. -/
theorem result_eq (c : Dev nD) :
    W7 (F := Ideal) m ρ c (Proc.devRef .tc main_v11) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 3).trans ((Region3.final3 (V6 m ρ) c).trans ?_)
  rw [at6_v6 m ρ c, at6_v8 m ρ c, at6_v10 m ρ c, at2_v6 m ρ c, at3_v7 m ρ c, at5_v9 m ρ c]
  rfl

end Cert.KernelIdeal.Chain

end
-- ==== Proof.KValue.lean ====
import proofs.«420716_j39676907883957_3_alg».proof.Proof.Whole
import Idealize.ShloMosaic.Lib.Pipeline.Value
import Idealize.ShloMosaic.Lib.ValueIdx
import Idealize.ShloMosaic.Lib.ValueLayout

noncomputable section

namespace Cert.KernelIdeal.Whole

open Cert.KernelIdeal Cert.Spec Idealize.ShloMosaic Idealize.ShloMosaic.ValueIdx

variable [Facts]
open Facts₀ Facts

/-! ## Reshapes read at an index

A reshape keeps the row-major position of every element.  A vector of length 2048 seen as a single column keeps
position i at (i, 0); a stack of eight 2048 × 2048 matrices seen as 16384 rows keeps element (b, j, d) in row
b·2048 + j at column d, since both positions are (b·2048 + j)·2048 + d. -/

/-- A vector seen as a one-column matrix, read at (i, u) with u the only column, is the vector at i. -/
theorem col_apply {α : Type} (x : S2048.Idx → α) (h : S2048.ShapeCasts S2048x1) (i : Fin 2048) (u : Fin 1) :
    shapeCast S2048x1 x h (ix2 i u) = x (ix1 i) :=
  shapeCast_apply x h _ _ (by
    have hu : u.val = 0 := by omega
    rw [Shape.rowMajor_val_two, Shape.rowMajor_val_one]
    show i.val = i.val * 1 + u.val
    omega)

/-- The flattened row that holds row j of matrix b of the stack. -/
abbrev flatRow (b : Fin 8) (j : Fin 2048) : Fin 16384 := ⟨b.val * 2048 + j.val, by omega⟩

/-- The stack seen as flattened rows, read at row b·2048 + j and column d, is the stack at (b, j, d). -/
theorem flat_apply {α : Type} (x : S8x2048x2048.Idx → α) (h : S8x2048x2048.ShapeCasts S16384x2048)
    (b : Fin 8) (j d : Fin 2048) :
    shapeCast S16384x2048 x h (ix2 (flatRow b j) d) = x (ix3 b j d) :=
  shapeCast_apply x h _ _ (by
    rw [Shape.rowMajor_val_three, Shape.rowMajor_val_two]
    rfl)

/-- Flattened rows seen as a stack, read at (b, j, t), are the rows at row b·2048 + j and column t. -/
theorem stack_apply {α : Type} (y : S16384x2048.Idx → α) (h : S16384x2048.ShapeCasts S8x2048x2048)
    (b : Fin 8) (j t : Fin 2048) :
    shapeCast S8x2048x2048 y h (ix3 b j t) = y (ix2 (flatRow b j) t) :=
  shapeCast_apply y h _ _ (by
    rw [Shape.rowMajor_val_three, Shape.rowMajor_val_two]
    rfl)

/-! ## The three projections read at coordinates -/

/-- The transposed projection at (b, e, s) is the weight-left linear layer at (b, s, e). -/
theorem projT_apply (x0 : Vec Ideal S8x2048x2048 .f32) (x3 : Vec Ideal S2048x2048 .f32) (x4 : Vec Ideal S2048 .f32)
    (b : Fin 8) (e s : Fin 2048) :
    projT x0 x3 (shapeCast S2048x1 x4 shapeCasts_S2048_S2048x1) (ix3 b e s)
      = linL (cur3 x0) (cur2 x3) (cur1 x4) b s e := by
  show (∑ d : Fin 2048, x3 (ix2 e d) * x0 (ix3 b s d)) + shapeCast S2048x1 x4 shapeCasts_S2048_S2048x1 (ix2 e 0)
      = (∑ d : Fin 2048, x3 (ix2 e d) * x0 (ix3 b s d)) + x4 (ix1 e)
  rw [col_apply]

/-- The row-by-row projection of the flattened stack, stacked again, at (b, j, t) is the linear layer there. -/
theorem projRows_apply (x1 : Vec Ideal S8x2048x2048 .f32) (x5 : Vec Ideal S2048x2048 .f32) (x6 : Vec Ideal S2048 .f32)
    (b : Fin 8) (j t : Fin 2048) :
    shapeCast S8x2048x2048 (projRows (shapeCast S16384x2048 x1 shapeCasts_S8x2048x2048_S16384x2048) x5
      (shapeCast S1x2048 x6 shapeCasts_S2048_S1x2048)) shapeCasts_S16384x2048_S8x2048x2048 (ix3 b j t)
      = lin (cur3 x1) (cur2 x5) (cur1 x6) b j t := by
  rw [stack_apply]
  show (∑ d : Fin 2048, shapeCast S16384x2048 x1 shapeCasts_S8x2048x2048_S16384x2048 (ix2 (flatRow b j) d) * x5 (ix2 t d))
        + shapeCast S1x2048 x6 shapeCasts_S2048_S1x2048 (ix2 0 t)
      = (∑ d : Fin 2048, x1 (ix3 b j d) * x5 (ix2 t d)) + x6 (ix1 t)
  rw [shapeCast_a_1a_apply]
  congr 1
  refine Finset.sum_congr rfl fun d _ => ?_
  rw [flat_apply]

/-- The same for the projection whose weight is first narrowed: at exact values narrowing changes nothing. -/
theorem projRowsB_apply (x2 : Vec Ideal S8x2048x2048 .f32) (x7 : Vec Ideal S2048x2048 .f32) (x8 : Vec Ideal S2048 .f32)
    (b : Fin 8) (j t : Fin 2048) :
    shapeCast S8x2048x2048 (projRowsB (shapeCast S16384x2048 x2 shapeCasts_S8x2048x2048_S16384x2048)
      (truncf (F := Ideal) .bf16 (x7 : FVec Ideal S2048x2048 .f32) bitsLt_bf16_f32 : FVec Ideal S2048x2048 .bf16)
      (shapeCast S1x2048 x8 shapeCasts_S2048_S1x2048)) shapeCasts_S16384x2048_S8x2048x2048 (ix3 b j t)
      = lin (cur3 x2) (cur2 x7) (cur1 x8) b j t := by
  rw [stack_apply]
  show (∑ d : Fin 2048, shapeCast S16384x2048 x2 shapeCasts_S8x2048x2048_S16384x2048 (ix2 (flatRow b j) d) * x7 (ix2 t d))
        + shapeCast S1x2048 x8 shapeCasts_S2048_S1x2048 (ix2 0 t)
      = (∑ d : Fin 2048, x2 (ix3 b j d) * x7 (ix2 t d)) + x8 (ix1 t)
  rw [shapeCast_a_1a_apply]
  congr 1
  refine Finset.sum_congr rfl fun d _ => ?_
  rw [flat_apply]

/-- The composed result read at (b, e, i) is the specification's reciprocal-multiplying form of the arguments
    read by coordinates. -/
theorem whole_apply (x0 x1 x2 : Vec Ideal S8x2048x2048 .f32) (x3 : Vec Ideal S2048x2048 .f32) (x4 : Vec Ideal S2048 .f32)
    (x5 : Vec Ideal S2048x2048 .f32) (x6 : Vec Ideal S2048 .f32) (x7 : Vec Ideal S2048x2048 .f32) (x8 : Vec Ideal S2048 .f32)
    (b : Fin 8) (e i : Fin 2048) :
    whole x0 x1 x2 x3 x4 x5 x6 x7 x8 (ix3 b e i)
      = resMul (cur3 x0) (cur3 x1) (cur3 x2) (cur2 x3) (cur2 x5) (cur2 x7) (cur1 x4) (cur1 x6) (cur1 x8) b e i := by
  unfold whole attend resMul
  refine Finset.sum_congr rfl fun j _ => ?_
  show softMul (fun j' => ∑ t : Fin 2048,
          projT x0 x3 (shapeCast S2048x1 x4 shapeCasts_S2048_S2048x1) (ix3 b i t)
            * shapeCast S8x2048x2048 (projRows (shapeCast S16384x2048 x1 shapeCasts_S8x2048x2048_S16384x2048) x5
                (shapeCast S1x2048 x6 shapeCasts_S2048_S1x2048)) shapeCasts_S16384x2048_S8x2048x2048 (ix3 b j' t)) j
        * shapeCast S8x2048x2048 (projRowsB (shapeCast S16384x2048 x2 shapeCasts_S8x2048x2048_S16384x2048)
            (truncf (F := Ideal) .bf16 (x7 : FVec Ideal S2048x2048 .f32) bitsLt_bf16_f32 : FVec Ideal S2048x2048 .bf16)
            (shapeCast S1x2048 x8 shapeCasts_S2048_S1x2048)) shapeCasts_S16384x2048_S8x2048x2048 (ix3 b j e)
      = softMul (logit (linL (cur3 x0) (cur2 x3) (cur1 x4)) (lin (cur3 x1) (cur2 x5) (cur1 x6)) b i) j
        * lin (cur3 x2) (cur2 x7) (cur1 x8) b j e
  rw [projRowsB_apply]
  congr 2
  funext j'
  show _ = ∑ t : Fin 2048, linL (cur3 x0) (cur2 x3) (cur1 x4) b t i * lin (cur3 x1) (cur2 x5) (cur1 x6) b j' t
  refine Finset.sum_congr rfl fun t _ => ?_
  rw [projT_apply, projRows_apply]

end Cert.KernelIdeal.Whole

end
-- ==== Proof.RValue.lean ====
import proofs.«420716_j39676907883957_3_alg».proof.Proof.Gen.ReferenceIdeal.Run
import proofs.«420716_j39676907883957_3_alg».proof.Proof.Gen.ReferenceIdeal.Read
import proofs.«420716_j39676907883957_3_alg».proof.Proof.Spec
import Idealize.ShloMosaic.Lib.IdealHost
import Idealize.ShloMosaic.PureOps.Reduce

noncomputable section

namespace Cert.ReferenceIdeal.RefValue

open Cert.ReferenceIdeal Cert.ReferenceIdeal.Read Cert.Spec Idealize.ShloMosaic Idealize.ShloMosaic.ValueIdx

/-! # The reference's result, read at an index

The reference computes three linear layers q, k, v, the logits z[b,i,j] = Σ_t q[b,t,i]·k[b,j,t] multiplied by the
word of one, a softmax over j that divides by the row sum, and out[b,e,i] = Σ_j a[b,i,j]·v[b,j,e]. Every stage is
read here at explicit coordinates, bottom-up; each step is a re-indexing of a sum or of a broadcast, and no law of
arithmetic is used beyond congruence under the sums. -/

/-! ## The three linear layers

Each is a contraction of the input's last axis against the weight's last axis, plus the bias read at the
output feature: at (b, s, e) the value Σ_d x[b,s,d]·W[e,d] + bias[e]. -/

section Layers

variable (x : (⟨S8x2048x2048, .f32⟩ : BufTy).Contents (Elt Ideal)) (W : (⟨S2048x2048, .f32⟩ : BufTy).Contents (Elt Ideal))
  (c : (⟨S2048, .f32⟩ : BufTy).Contents (Elt Ideal)) (b : Fin 8) (s e : Fin 2048)

/-- The first layer at (b, s, e). -/
theorem layer_q : val_main_v3 (F := Ideal) x W c (ix3 b s e) = lin (cur3 x) (cur2 W) (cur1 c) b s e := by
  rw [val_main_v3_apply, val_main_v0_apply, val_main_v2_apply, val_main_v1_apply]
  have el : ∀ k : Fin 2048, lidx_main_v0 (ix3 b s e) k = ix3 b s k := fun k =>
    funext fun a => Fin.ext (by match a with | ⟨0, _⟩ => rfl | ⟨1, _⟩ => rfl | ⟨2, _⟩ => rfl)
  have er : ∀ k : Fin 2048, ridx_main_v0 (ix3 b s e) k = ix2 e k := fun k =>
    funext fun a => Fin.ext (by match a with | ⟨0, _⟩ => rfl | ⟨1, _⟩ => rfl)
  have eb : idx_main_v1 (idx_main_v2 (ix3 b s e)) = ix1 e :=
    funext fun a => Fin.ext (by match a with | ⟨0, _⟩ => rfl)
  simp only [el, er, eb, Ideal.addf_def]
  rfl

/-- The second layer at (b, s, e). -/
theorem layer_k : val_main_v7 (F := Ideal) x W c (ix3 b s e) = lin (cur3 x) (cur2 W) (cur1 c) b s e := by
  rw [val_main_v7_apply, val_main_v4_apply, val_main_v6_apply, val_main_v5_apply]
  have el : ∀ k : Fin 2048, lidx_main_v4 (ix3 b s e) k = ix3 b s k := fun k =>
    funext fun a => Fin.ext (by match a with | ⟨0, _⟩ => rfl | ⟨1, _⟩ => rfl | ⟨2, _⟩ => rfl)
  have er : ∀ k : Fin 2048, ridx_main_v4 (ix3 b s e) k = ix2 e k := fun k =>
    funext fun a => Fin.ext (by match a with | ⟨0, _⟩ => rfl | ⟨1, _⟩ => rfl)
  have eb : idx_main_v5 (idx_main_v6 (ix3 b s e)) = ix1 e :=
    funext fun a => Fin.ext (by match a with | ⟨0, _⟩ => rfl)
  simp only [el, er, eb, Ideal.addf_def]
  rfl

/-- The third layer at (b, s, e). -/
theorem layer_v : val_main_v11 (F := Ideal) x W c (ix3 b s e) = lin (cur3 x) (cur2 W) (cur1 c) b s e := by
  rw [val_main_v11_apply, val_main_v8_apply, val_main_v10_apply, val_main_v9_apply]
  have el : ∀ k : Fin 2048, lidx_main_v8 (ix3 b s e) k = ix3 b s k := fun k =>
    funext fun a => Fin.ext (by match a with | ⟨0, _⟩ => rfl | ⟨1, _⟩ => rfl | ⟨2, _⟩ => rfl)
  have er : ∀ k : Fin 2048, ridx_main_v8 (ix3 b s e) k = ix2 e k := fun k =>
    funext fun a => Fin.ext (by match a with | ⟨0, _⟩ => rfl | ⟨1, _⟩ => rfl)
  have eb : idx_main_v9 (idx_main_v10 (ix3 b s e)) = ix1 e :=
    funext fun a => Fin.ext (by match a with | ⟨0, _⟩ => rfl)
  simp only [el, er, eb, Ideal.addf_def]
  rfl

end Layers

/-! ## The row maximum

A maximum-reduce over the last axis of an [8, 2048, 2048] array, read at (b, i), is the fold of `max` from the
initial word over the row's coordinates: the reduced indices over (b, i) are (b, i, j), j over the row. -/

section RowMax

/-- The reduce over the last axis at (b, i). -/
theorem reduce_max_row (y : (⟨S8x2048x2048, .f32⟩ : BufTy).Contents (Elt Ideal)) (init : (⟨S_, .f32⟩ : BufTy).Contents (Elt Ideal))
    (h' : S8x2048x2048.ReducesTo [2] S8x2048) (hu : 0 < S_.numel) (b : Fin 8) (i : Fin 2048) :
    Host.reduce (FloatOps.maximumf (F := Ideal) (φ := .f32)) y init h' hu (ix2 b i)
      = (Finset.univ : Finset (Fin 2048)).fold (max : EReal → EReal → EReal) (init (Shape.Idx.first hu)) (fun j => y (ix3 b i j)) := by
  have h : S8x2048x2048.Reduces [2] S8x2048 := by decide
  rw [Host.reduce_eq_fold_single (FloatOps.maximumf (F := Ideal) (φ := .f32)) y init h' h hu (ix2 b i)]
  have e : ∀ k : Fin 2048, h.lift (ix2 b i) k = ix3 b i k := fun k =>
    funext fun a => Fin.ext (by match a with | ⟨0, _⟩ => rfl | ⟨1, _⟩ => rfl | ⟨2, _⟩ => rfl)
  show (Finset.univ : Finset (Fin 2048)).fold (max : EReal → EReal → EReal) (init (Shape.Idx.first hu)) (fun k => y (h.lift (ix2 b i) k)) = _
  exact Finset.fold_congr (fun k _ => congrArg y (e k))

end RowMax

/-! ## The logits, the row maximum, the dividing softmax -/

section Soft

variable (x0 x1 : (⟨S8x2048x2048, .f32⟩ : BufTy).Contents (Elt Ideal)) (x3 : (⟨S2048x2048, .f32⟩ : BufTy).Contents (Elt Ideal))
  (x4 : (⟨S2048, .f32⟩ : BufTy).Contents (Elt Ideal)) (x5 : (⟨S2048x2048, .f32⟩ : BufTy).Contents (Elt Ideal))
  (x6 : (⟨S2048, .f32⟩ : BufTy).Contents (Elt Ideal)) (b : Fin 8) (i j : Fin 2048)

/-- The logits times the word of one at (b, i, j): both transposes are undone by the contraction, which runs over
    the sequence axis of the first layer's result and the feature axis of the second's. -/
theorem logits_one : val_main_v16 (F := Ideal) x0 x1 x3 x4 x5 x6 (ix3 b i j)
    = logitOne (lin (cur3 x0) (cur2 x3) (cur1 x4)) (lin (cur3 x1) (cur2 x5) (cur1 x6)) b i j := by
  rw [val_main_v16_apply, val_main_v14_apply, val_main_v15_apply, val_main_cst_apply]
  have hq : ∀ t : Fin 2048, val_main_v12 (F := Ideal) x0 x3 x4 (lidx_main_v14 (ix3 b i j) t)
      = lin (cur3 x0) (cur2 x3) (cur1 x4) b t i := fun t => by
    rw [val_main_v12_apply]
    have e : idx_main_v12 (lidx_main_v14 (ix3 b i j) t) = ix3 b t i :=
      funext fun a => Fin.ext (by match a with | ⟨0, _⟩ => rfl | ⟨1, _⟩ => rfl | ⟨2, _⟩ => rfl)
    rw [e, layer_q]
  have hk : ∀ t : Fin 2048, val_main_v13 (F := Ideal) x1 x5 x6 (ridx_main_v14 (ix3 b i j) t)
      = lin (cur3 x1) (cur2 x5) (cur1 x6) b j t := fun t => by
    rw [val_main_v13_apply]
    have e : idx_main_v13 (ridx_main_v14 (ix3 b i j) t) = ix3 b j t :=
      funext fun a => Fin.ext (by match a with | ⟨0, _⟩ => rfl | ⟨1, _⟩ => rfl | ⟨2, _⟩ => rfl)
    rw [e, layer_k]
  simp only [hq, hk, Ideal.mulf_def, Ideal.ofBits_def]
  rfl

/-- The row maximum taken once more against the word of minus infinity, at (b, i). -/
theorem row_max_again : val_main_v19 (F := Ideal) x0 x1 x3 x4 x5 x6 (ix2 b i)
    = rowMax' (logitOne (lin (cur3 x0) (cur2 x3) (cur1 x4)) (lin (cur3 x1) (cur2 x5) (cur1 x6)) b i) := by
  rw [val_main_v19_apply, val_main_v18_apply, val_main_cst_1_apply]
  unfold val_main_v17
  rw [reduce_max_row]
  have ef : (fun j => val_main_v16 (F := Ideal) x0 x1 x3 x4 x5 x6 (ix3 b i j))
      = logitOne (lin (cur3 x0) (cur2 x3) (cur1 x4)) (lin (cur3 x1) (cur2 x5) (cur1 x6)) b i :=
    funext fun j => logits_one x0 x1 x3 x4 x5 x6 b i j
  rw [ef, val_main_cst_0_apply]
  simp only [Ideal.maximumf_def, Ideal.ofBits_def]
  rfl

/-- The exponential of the shifted logit at (b, i, j): the maximum is broadcast back along the row. -/
theorem exp_shift : val_main_v23 (F := Ideal) x0 x1 x3 x4 x5 x6 (ix3 b i j)
    = Ideal.exp (logitOne (lin (cur3 x0) (cur2 x3) (cur1 x4)) (lin (cur3 x1) (cur2 x5) (cur1 x6)) b i j
        - rowMax' (logitOne (lin (cur3 x0) (cur2 x3) (cur1 x4)) (lin (cur3 x1) (cur2 x5) (cur1 x6)) b i)) := by
  rw [val_main_v23_apply, val_main_v22_apply, val_main_v21_apply, val_main_v20_apply]
  have hb : idx_main_v20 (idx_main_v21 (ix3 b i j)) = ix2 b i :=
    funext fun a => Fin.ext (by match a with | ⟨0, _⟩ => rfl | ⟨1, _⟩ => rfl)
  rw [hb, row_max_again, logits_one]
  simp only [Ideal.hostUnary_exp_def, Ideal.subf_def]

/-- The dividing softmax at (b, i, j): the exponential over the row sum started from the zero word, the sum
    broadcast back along the row. -/
theorem soft_div : val_main_v27 (F := Ideal) x0 x1 x3 x4 x5 x6 (ix3 b i j)
    = softDiv (logitOne (lin (cur3 x0) (cur2 x3) (cur1 x4)) (lin (cur3 x1) (cur2 x5) (cur1 x6)) b i) j := by
  rw [val_main_v27_apply, val_main_v26_apply, val_main_v25_apply, val_main_v24_apply, val_main_cst_2_apply]
  have hs : ∀ k : Fin 2048, idx_main_v24 (idx_main_v25 (idx_main_v26 (ix3 b i j))) k = ix3 b i k := fun k =>
    funext fun a => Fin.ext (by match a with | ⟨0, _⟩ => rfl | ⟨1, _⟩ => rfl | ⟨2, _⟩ => rfl)
  simp only [hs, exp_shift, Ideal.hostDivf_def, Ideal.ofBits_def]
  rfl

end Soft

/-- The reference's result read at (b, e, i) is the specification's dividing form of the arguments read by
    coordinates. -/
theorem ref_apply (x0 x1 x2 : (⟨S8x2048x2048, .f32⟩ : BufTy).Contents (Elt Ideal)) (x3 : (⟨S2048x2048, .f32⟩ : BufTy).Contents (Elt Ideal))
    (x4 : (⟨S2048, .f32⟩ : BufTy).Contents (Elt Ideal)) (x5 : (⟨S2048x2048, .f32⟩ : BufTy).Contents (Elt Ideal))
    (x6 : (⟨S2048, .f32⟩ : BufTy).Contents (Elt Ideal)) (x7 : (⟨S2048x2048, .f32⟩ : BufTy).Contents (Elt Ideal))
    (x8 : (⟨S2048, .f32⟩ : BufTy).Contents (Elt Ideal)) (b : Fin 8) (e i : Fin 2048) :
    val_main_v29 x0 x1 x2 x3 x4 x5 x6 x7 x8 (ix3 b e i)
      = resDiv (cur3 x0) (cur3 x1) (cur3 x2) (cur2 x3) (cur2 x5) (cur2 x7) (cur1 x4) (cur1 x6) (cur1 x8) b e i := by
  -- the last transpose swaps the two trailing coordinates; the contraction before it runs over the row index j
  rw [val_main_v29_apply]
  have ht : idx_main_v29 (ix3 b e i) = ix3 b i e :=
    funext fun a => Fin.ext (by match a with | ⟨0, _⟩ => rfl | ⟨1, _⟩ => rfl | ⟨2, _⟩ => rfl)
  rw [ht, val_main_v28_apply]
  have hl : ∀ k : Fin 2048, lidx_main_v28 (ix3 b i e) k = ix3 b i k := fun k =>
    funext fun a => Fin.ext (by match a with | ⟨0, _⟩ => rfl | ⟨1, _⟩ => rfl | ⟨2, _⟩ => rfl)
  have hr : ∀ k : Fin 2048, ridx_main_v28 (ix3 b i e) k = ix3 b k e := fun k =>
    funext fun a => Fin.ext (by match a with | ⟨0, _⟩ => rfl | ⟨1, _⟩ => rfl | ⟨2, _⟩ => rfl)
  simp only [hl, hr, soft_div, layer_v]
  rfl

end Cert.ReferenceIdeal.RefValue

end
-- ==== Proof.Law.lean ====
import proofs.«420716_j39676907883957_3_alg».proof.Proof.Spec
import Idealize.ShloMosaic.Lib.IdealHost

noncomputable section

namespace Cert.Spec

open Idealize.ShloMosaic

/-! ### The three words -/

/-- The word of minus infinity is the bottom element. -/
theorem negInf_eq : negInf = (⊥ : EReal) := by
  simp [negInf, Ideal.ofBits, Ideal.ieee]

/-- The zero word is zero. -/
theorem zeroW_eq : zeroW = (0 : EReal) := Ideal.ofBits_zero_f32

/-- The word of one is one. -/
theorem oneW_eq : oneW = (1 : EReal) := Ideal.ofBits_one_f32

/-! ### Finite sums and maxima of real entries stay real -/

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a row of real entries, folded from minus infinity, is a real number. -/
theorem rowMax_real (z : T1) (r : Fin 2048 → ℝ) (hz : ∀ j, z j = ((r j : ℝ) : EReal)) :
    ∃ R : ℝ, rowMax z = ((R : ℝ) : EReal) := by
  have hbot : rowMax z ≠ ⊥ := by
    have hle : z 0 ≤ rowMax z := by
      unfold rowMax
      rw [Finset.le_fold_max]
      exact Or.inr ⟨0, Finset.mem_univ _, le_rfl⟩
    intro h
    rw [h, hz 0] at hle
    exact EReal.coe_ne_bot _ (le_bot_iff.mp hle)
  have htop : rowMax z ≠ ⊤ := by
    have hlt : rowMax z < ⊤ := by
      unfold rowMax
      rw [Finset.fold_max_lt]
      refine ⟨?_, fun j _ => ?_⟩
      · rw [negInf_eq]; exact bot_lt_top
      · rw [hz j]; exact EReal.coe_lt_top _
    exact hlt.ne
  exact ⟨(rowMax z).toReal, (EReal.coe_toReal htop hbot).symm⟩

/-! ### The law of the reciprocal -/

/-- Off a zero divisor, multiplying by the reciprocal is dividing. -/
theorem mul_div_one (p l : EReal) (hl : l ≠ 0) : p * Ideal.div 1 l = Ideal.div p l := by
  unfold Ideal.div
  rw [if_neg hl, if_neg hl, one_mul]

/-! ### The two softmaxes on a real row -/

/-- The second maximum against minus infinity changes nothing. -/
theorem rowMax'_eq (z : T1) : rowMax' z = rowMax z := by
  unfold rowMax'
  rw [negInf_eq]
  exact max_eq_right bot_le

/-- On a row of real entries the row sum of the exponentials is not zero. -/
theorem rowSum_ne_zero (z : T1) (hz : ∀ j, ∃ r : ℝ, z j = ((r : ℝ) : EReal)) :
    (∑ j' : Fin 2048, Ideal.exp (z j' - rowMax z)) ≠ 0 := by
  choose r hr using hz
  obtain ⟨R, hR⟩ := rowMax_real z r hr
  have hterm : ∀ j' : Fin 2048, Ideal.exp (z j' - rowMax z) = ((Real.exp (r j' - R) : ℝ) : EReal) := by
    intro j'
    rw [hr j', hR, ← EReal.coe_sub, Ideal.exp_coe]
  simp only [hterm]
  rw [coe_sum, EReal.coe_ne_zero]
  have hpos : 0 < ∑ j' : Fin 2048, Real.exp (r j' - R) :=
    Finset.sum_pos (fun j' _ => Real.exp_pos _) ⟨0, Finset.mem_univ _⟩
  exact hpos.ne'

/-- On a row of real entries the two softmaxes agree. -/
theorem softMul_eq_softDiv (z : T1) (hz : ∀ j, ∃ r : ℝ, z j = ((r : ℝ) : EReal)) :
    softMul z = softDiv z := by
  funext j
  unfold softMul softDiv
  rw [rowMax'_eq, zeroW_eq, oneW_eq, zero_add]
  exact mul_div_one _ _ (rowSum_ne_zero z hz)

/-! ### The logits are real where the inputs are -/

/-- The two orders of the factors give the same linear layer. -/
theorem linL_eq_lin (x : T3) (W : T2) (bias : T1) : linL x W bias = lin x W bias := by
  funext b s e
  unfold linL lin
  congr 1
  exact Finset.sum_congr rfl fun d _ => mul_comm _ _

/-- A linear layer of real inputs, weights and biases has real entries. -/
theorem lin_real (x : T3) (W : T2) (bias : T1)
    (hx : ∀ b s d, ∃ r : ℝ, x b s d = ((r : ℝ) : EReal)) (hW : ∀ e d, ∃ r : ℝ, W e d = ((r : ℝ) : EReal))
    (hb : ∀ e, ∃ r : ℝ, bias e = ((r : ℝ) : EReal)) :
    ∀ b s e, ∃ r : ℝ, lin x W bias b s e = ((r : ℝ) : EReal) := by
  choose rx hrx using hx
  choose rW hrW using hW
  choose rb hrb using hb
  intro b s e
  refine ⟨(∑ d : Fin 2048, rx b s d * rW e d) + rb e, ?_⟩
  unfold lin
  simp only [hrx, hrW, hrb]
  simp only [← EReal.coe_mul]
  rw [coe_sum, ← EReal.coe_add]

/-- The logits of real queries and keys are real. -/
theorem logit_real (q k : T3) (hq : ∀ b s e, ∃ r : ℝ, q b s e = ((r : ℝ) : EReal))
    (hk : ∀ b s e, ∃ r : ℝ, k b s e = ((r : ℝ) : EReal)) :
    ∀ b i j, ∃ r : ℝ, logit q k b i j = ((r : ℝ) : EReal) := by
  choose rq hrq using hq
  choose rk hrk using hk
  intro b i j
  refine ⟨∑ t : Fin 2048, rq b t i * rk b j t, ?_⟩
  unfold logit
  simp only [hrq, hrk]
  simp only [← EReal.coe_mul]
  rw [coe_sum]

/-- Multiplying the logits by the word of one changes nothing. -/
theorem logitOne_eq (q k : T3) : logitOne q k = logit q k := by
  funext b i j
  unfold logitOne
  rw [oneW_eq, mul_one]

/-! ### The two results -/

/-- Where the query and key inputs, their weights and their biases are real numbers, the two readings of the
    softmax agree, and with them the two results. (The value inputs, weight and bias may be anything.) -/
theorem resMul_eq_resDiv (xq xk xv : T3) (Wq Wk Wv : T2) (bq bk bv : T1)
    (hxq : ∀ b s d, ∃ r : ℝ, xq b s d = (r : EReal)) (hxk : ∀ b s d, ∃ r : ℝ, xk b s d = (r : EReal))
    (hWq : ∀ e d, ∃ r : ℝ, Wq e d = (r : EReal)) (hWk : ∀ e d, ∃ r : ℝ, Wk e d = (r : EReal))
    (hbq : ∀ e, ∃ r : ℝ, bq e = (r : EReal)) (hbk : ∀ e, ∃ r : ℝ, bk e = (r : EReal)) :
    resMul xq xk xv Wq Wk Wv bq bk bv = resDiv xq xk xv Wq Wk Wv bq bk bv := by
  funext b e i
  unfold resMul resDiv
  rw [linL_eq_lin, logitOne_eq]
  have hz := logit_real (lin xq Wq bq) (lin xk Wk bk) (lin_real xq Wq bq hxq hWq hbq)
    (lin_real xk Wk bk hxk hWk hbk) b i
  rw [softMul_eq_softDiv _ hz]

end Cert.Spec

end
-- ==== Proof.Finite.lean ====
import proofs.«420716_j39676907883957_3_alg».proof.Pre_finite_inputs
import proofs.«420716_j39676907883957_3_alg».proof.Proof.Spec
import Idealize.ShloMosaic.Lib.ReduceAll

noncomputable section

namespace Cert.Pre_finite_inputs.Real

open Cert.Pre_finite_inputs Cert.Spec Idealize.ShloMosaic Idealize.ShloMosaic.ValueIdx

/-- The shape with no axis has exactly one index. -/
instance : Subsingleton S_.Idx := ⟨fun a b => funext fun d => d.elim0⟩

/-- An extended real whose absolute value, the larger of itself and its negative, lies strictly below the
    word of plus infinity is a real number: each of the two infinities has absolute value plus infinity,
    which is not strictly below itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition, at any shape: if the conjunction over every index of
    "|x| < plus infinity" is true then every entry of x is a real number. A conjunction that is true
    is true at each index; there the comparison reads the entry against the one broadcast word. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ix0 = 1#1)
    (i : s.Idx) : ∃ r : ℝ, x i = (r : EReal) := by
  have e := Host.reduce_andi_all _ _ hr hu ix0 h i
  exact real_of_abs_lt (x i) e

variable [Facts]

/-- Under the printed precondition (every input's absolute value below plus infinity) the six arrays the
    logits are made of hold real numbers, read by coordinates. -/
theorem real_of_pre (x0 x1 x2 : FVec Ideal S8x2048x2048 .f32) (x3 : FVec Ideal S2048x2048 .f32) (x4 : FVec Ideal S2048 .f32)
    (x5 : FVec Ideal S2048x2048 .f32) (x6 : FVec Ideal S2048 .f32) (x7 : FVec Ideal S2048x2048 .f32) (x8 : FVec Ideal S2048 .f32)
    (h : fn (F := Ideal) x0 x1 x2 x3 x4 x5 x6 x7 x8 = fun _ => 1#1) :
    (∀ b s d, ∃ r : ℝ, cur3 x0 b s d = (r : EReal)) ∧ (∀ b s d, ∃ r : ℝ, cur3 x1 b s d = (r : EReal))
    ∧ (∀ e d, ∃ r : ℝ, cur2 x3 e d = (r : EReal)) ∧ (∀ e d, ∃ r : ℝ, cur2 x5 e d = (r : EReal))
    ∧ (∀ e, ∃ r : ℝ, cur1 x4 e = (r : EReal)) ∧ (∀ e, ∃ r : ℝ, cur1 x6 e = (r : EReal)) := by
  -- The precondition at its one index is a nine-fold conjunction, one conjunct per array, nested to the left.
  have h0 := congrFun h ix0
  dsimp only [fn, fn_part1, fn_part2] at h0
  -- Peel it from the outside: the ninth and eighth arrays and the third are not needed.
  obtain ⟨h0, -⟩ := IntOp.andi_eq_one.1 h0
  obtain ⟨h0, -⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, -⟩ := IntOp.andi_eq_one.1 h0
  obtain ⟨h0, h1⟩ := IntOp.andi_eq_one.1 h0
  -- Each remaining conjunct makes every entry of its array real, in particular the one at given coordinates.
  exact ⟨fun b s d => real_of_all x0 _ _ _ h0 _, fun b s d => real_of_all x1 _ _ _ h1 _,
    fun e d => real_of_all x3 _ _ _ h3 _, fun e d => real_of_all x5 _ _ _ h5 _,
    fun e => real_of_all x4 _ _ _ h4 _, fun e => real_of_all x6 _ _ _ h6 _⟩

end Cert.Pre_finite_inputs.Real

end
-- ==== Proof.lean ====
/-
  The kernel is four launches: three linear layers (the query's written transposed, the value's through the
  narrower float format) and an attention core that contracts the SEQUENCE axis of q against the FEATURE axis of
  k, normalises each row of logits by a softmax and contracts with v, writing the product transposed. The
  reference is the same computation in one host program.

  At exact values a change of float format is the identity and every contraction is a plain finite sum, so the
  two programs differ only in the softmax: the kernel multiplies each exponential by the reciprocal of the row
  sum, the reference divides by it (after a multiplication of the logits by one, a second maximum against minus
  infinity and a sum started at zero, all of which change nothing). The two agree where the row sum is not zero,
  which holds where the logits are real numbers; that is where the precondition, every input finite, is used:
  on the query and key inputs, weights and biases. The value path is the same term on both sides.

  The frames are the generated ones. `preserves` has no entry. For `algebraic`: the kernel's run, with the
  result buffer named at the last boundary of the run, is read back through the four regions and the reshapes
  between them to one function of the arguments; that function at an index, and the reference's generated
  term at an index, are the specification's two forms; `Law.lean` joins them.
-/
import proofs.«420716_j39676907883957_3_alg».proof.Defs
import proofs.«420716_j39676907883957_3_alg».proof.Proof.Gen.Kernel
import proofs.«420716_j39676907883957_3_alg».proof.Proof.Gen.Kernel.Frame
import proofs.«420716_j39676907883957_3_alg».proof.Proof.Gen.KernelIdeal
import proofs.«420716_j39676907883957_3_alg».proof.Proof.Gen.KernelIdeal.Frame
import proofs.«420716_j39676907883957_3_alg».proof.Proof.Gen.ReferenceIdeal
import proofs.«420716_j39676907883957_3_alg».proof.Proof.Gen.ReferenceIdeal.Run
import proofs.«420716_j39676907883957_3_alg».proof.Proof.Gen.ReferenceIdeal.Read
import proofs.«420716_j39676907883957_3_alg».proof.Proof.Gen.Pre_finite_inputs
import proofs.«420716_j39676907883957_3_alg».proof.Proof.Spec
import proofs.«420716_j39676907883957_3_alg».proof.Proof.Whole
import proofs.«420716_j39676907883957_3_alg».proof.Proof.KChain
import proofs.«420716_j39676907883957_3_alg».proof.Proof.KRun
import proofs.«420716_j39676907883957_3_alg».proof.Proof.KValue
import proofs.«420716_j39676907883957_3_alg».proof.Proof.RValue
import proofs.«420716_j39676907883957_3_alg».proof.Proof.Law
import proofs.«420716_j39676907883957_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at one function of the arguments: the kernel's by its run read back through
    the regions, the reference's by its generated term, the two joined index by index through the
    specification's two forms, equal under the precondition. -/
theorem algebraic : Cert.algebraic_KernelIdeal_ReferenceIdeal := by
  intro m ρ m' ρ' hpre hagree
  refine ⟨fun c => Cert.KernelIdeal.Whole.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v29_eq, a0, a1, a2, a3, a4, a5, a6, a7, a8]
    funext idx
    obtain ⟨b, e, i, rfl⟩ : ∃ (b : Fin 8) (e i : Fin 2048), idx = ix3 b e i := ⟨idx 0, idx 1, idx 2, eq_ix3 idx⟩
    obtain ⟨r0, r1, r3, r5, r4, r6⟩ := Cert.Pre_finite_inputs.Real.real_of_pre _ _ _ _ _ _ _ _ _ (hpre c)
    refine (Cert.ReferenceIdeal.RefValue.ref_apply _ _ _ _ _ _ _ _ _ b e i).trans ?_
    refine Eq.trans ?_ (Cert.KernelIdeal.Whole.whole_apply _ _ _ _ _ _ _ _ _ b e i).symm
    exact (congrFun (congrFun (congrFun
      (Cert.Spec.resMul_eq_resDiv _ _ _ _ _ _ _ _ _ r0 r1 r3 r5 r4 r6) b) e) i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
